-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S800000 : Shape := ⟨1, ![800000]⟩
abbrev S100 : Shape := ⟨1, ![100]⟩
abbrev S128x228 : Shape := ⟨2, ![128, 228]⟩
abbrev S64x128 : Shape := ⟨2, ![64, 128]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S100 : S_.BroadcastsInDim S100 (![] : Fin 0 → Fin S100.rank)
  reducesTo_S100_S_d0 : S100.ReducesTo [0] S_
  bcast_S_S128x228 : S_.BroadcastsInDim S128x228 (![] : Fin 0 → Fin S128x228.rank)
  reducesTo_S128x228_S_d0_1 : S128x228.ReducesTo [0, 1] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg2 : IVec S800000 32) (main_v30 : IVec S_ 1) (main_v32 : IVec S800000 1) (main_c_12 : IVec S_ 32) : IVec S_ 1 :=
  let main_v33 : IVec S800000 32 := broadcastInDim S800000 ![] bcast_S_S800000 main_c_12
  let main_v34 : IVec S800000 1 := cmpi .slt main_arg2 main_v33
  let main_v35 : IVec S800000 1 := andi main_v32 main_v34
  let main_c_13 : IVec S_ 1 := constantI S_ 1 1#1
  let main_v36 : IVec S_ 1 := (fun x v => Host.reduce IntOp.andi x v reducesTo_S800000_S_d0 h_S_) main_v35 main_c_13
  let main_v37 : IVec S_ 1 := andi main_v30 main_v36
  main_v37

def fn_part1 {F : FTy → Type} [FloatOps F] (main_arg1 : IVec S800000 32) (main_arg2 : IVec S800000 32) (main_arg6 : FVec F S64x128 .f32) (main_v13 : IVec S_ 1) (main_v16 : IVec S128x228 1) : IVec S_ 1 :=
  let main_c_5 : IVec S_ 1 := constantI S_ 1 1#1
  let main_v17 : IVec S_ 1 := (fun x v => Host.reduce IntOp.andi x v reducesTo_S128x228_S_d0_1 h_S_) main_v16 main_c_5
  let main_v18 : IVec S_ 1 := andi main_v13 main_v17
  let main_v19 : FVec F S64x128 .f32 := Host.absf main_arg6
  let main_cst_6 : FVec F S_ .f32 := constant S_ .f32 0x7F800000#32
  let main_v20 : FVec F S64x128 .f32 := broadcastInDim S64x128 ![] bcast_S_S64x128 main_cst_6
  let main_v21 : IVec S64x128 1 := cmpf .olt main_v19 main_v20
  let main_c_7 : IVec S_ 1 := constantI S_ 1 1#1
  let main_v22 : IVec S_ 1 := (fun x v => Host.reduce IntOp.andi x v reducesTo_S64x128_S_d0_1 h_S_) main_v21 main_c_7
  let main_v23 : IVec S_ 1 := andi main_v18 main_v22
  let main_c_8 : IVec S_ 32 := constantI S_ 32 4294917296#32
  let main_v24 : IVec S800000 32 := broadcastInDim S800000 ![] bcast_S_S800000 main_c_8
  let main_v25 : IVec S800000 1 := cmpi .sge main_arg1 main_v24
  let main_c_9 : IVec S_ 32 := constantI S_ 32 50000#32
  let main_v26 : IVec S800000 32 := broadcastInDim S800000 ![] bcast_S_S800000 main_c_9
  let main_v27 : IVec S800000 1 := cmpi .slt main_arg1 main_v26
  let main_v28 : IVec S800000 1 := andi main_v25 main_v27
  let main_c_10 : IVec S_ 1 := constantI S_ 1 1#1
  let main_v29 : IVec S_ 1 := (fun x v => Host.reduce IntOp.andi x v reducesTo_S800000_S_d0 h_S_) main_v28 main_c_10
  let main_v30 : IVec S_ 1 := andi main_v23 main_v29
  let main_c_11 : IVec S_ 32 := constantI S_ 32 4294917296#32
  let main_v31 : IVec S800000 32 := broadcastInDim S800000 ![] bcast_S_S800000 main_c_11
  let main_v32 : IVec S800000 1 := cmpi .sge main_arg2 main_v31
  let main_c_12 : IVec S_ 32 := constantI S_ 32 50000#32
  fn_part2 (F := F) main_arg2 main_v30 main_v32 main_c_12

def fn {F : FTy → Type} [FloatOps F] (main_arg0 : FVec F S50000x64 .f32) (main_arg1 : IVec S800000 32) (main_arg2 : IVec S800000 32) (main_arg3 : FVec F S800000 .f32) (main_arg4 : FVec F S100 .f32) (main_arg5 : FVec F S128x228 .f32) (main_arg6 : FVec F S64x128 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000 .f32 := Host.absf main_arg3
  let main_cst_0 : FVec F S_ .f32 := constant S_ .f32 0x7F800000#32
  let main_v5 : FVec F S800000 .f32 := broadcastInDim S800000 ![] bcast_S_S800000 main_cst_0
  let main_v6 : IVec S800000 1 := cmpf .olt main_v4 main_v5
  let main_c_1 : IVec S_ 1 := constantI S_ 1 1#1
  let main_v7 : IVec S_ 1 := (fun x v => Host.reduce IntOp.andi x v reducesTo_S800000_S_d0 h_S_) main_v6 main_c_1
  let main_v8 : IVec S_ 1 := andi main_v3 main_v7
  let main_v9 : FVec F S100 .f32 := Host.absf main_arg4
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S128x228 .f32 := Host.absf main_arg5
  let main_cst_4 : FVec F S_ .f32 := constant S_ .f32 0x7F800000#32
  let main_v15 : FVec F S128x228 .f32 := broadcastInDim S128x228 ![] bcast_S_S128x228 main_cst_4
  let main_v16 : IVec S128x228 1 := cmpf .olt main_v14 main_v15
  fn_part1 (F := F) main_arg1 main_arg2 main_arg6 main_v13 main_v16
-- ==== Kernel.lean ====
abbrev S50000x64 : Shape := ⟨2, ![50000, 64]⟩
abbrev S800000 : Shape := ⟨1, ![800000]⟩
abbrev S100 : Shape := ⟨1, ![100]⟩
abbrev S128x228 : Shape := ⟨2, ![128, 228]⟩
abbrev S64x128 : Shape := ⟨2, ![64, 128]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S1x100 : Shape := ⟨2, ![1, 100]⟩
abbrev S128x64 : Shape := ⟨2, ![128, 64]⟩
abbrev S128x100 : Shape := ⟨2, ![128, 100]⟩
abbrev S100x128 : Shape := ⟨2, ![100, 128]⟩
abbrev S4000x64 : Shape := ⟨2, ![4000, 64]⟩
abbrev S4000x1 : Shape := ⟨2, ![4000, 1]⟩
abbrev S4000x100 : Shape := ⟨2, ![4000, 100]⟩
abbrev S4000x128 : Shape := ⟨2, ![4000, 128]⟩

abbrev nBuf : Space → Nat
  | .hbm => 63
  | .vmem => 13
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S100, .f32⟩
  | .hbm, ⟨5, _⟩ => ⟨S128x228, .f32⟩
  | .hbm, ⟨6, _⟩ => ⟨S64x128, .f32⟩
  | .hbm, ⟨7, _⟩ => ⟨S_, .i32⟩
  | .hbm, ⟨8, _⟩ => ⟨S800000, .i32⟩
  | .hbm, ⟨9, _⟩ => ⟨S800000, .i1⟩
  | .hbm, ⟨10, _⟩ => ⟨S_, .i32⟩
  | .hbm, ⟨11, _⟩ => ⟨S800000, .i32⟩
  | .hbm, ⟨12, _⟩ => ⟨S800000, .i32⟩
  | .hbm, ⟨13, _⟩ => ⟨S800000, .i32⟩
  | .hbm, ⟨14, _⟩ => ⟨S800000x1, .i32⟩
  | .hbm, ⟨15, _⟩ => ⟨S1, .i32⟩
  | .hbm, ⟨16, _⟩ => ⟨S_, .i32⟩
  | .hbm, ⟨17, _⟩ => ⟨S800000x1, .i32⟩
  | .hbm, ⟨18, _⟩ => ⟨S800000x1, .i1⟩
  | .hbm, ⟨19, _⟩ => ⟨S1x1, .i32⟩
  | .hbm, ⟨20, _⟩ => ⟨S800000x1, .i32⟩
  | .hbm, ⟨21, _⟩ => ⟨S800000x1, .i1⟩
  | .hbm, ⟨22, _⟩ => ⟨S800000x1, .i1⟩
  | .hbm, ⟨23, _⟩ => ⟨S_, .i1⟩
  | .hbm, ⟨24, _⟩ => ⟨S800000, .i1⟩
  | .hbm, ⟨25, _⟩ => ⟨S800000x64, .f32⟩
  | .hbm, ⟨26, _⟩ => ⟨S800000x64, .i1⟩
  | .hbm, ⟨27, _⟩ => ⟨S_, .f32⟩
  | .hbm, ⟨28, _⟩ => ⟨S800000x64, .f32⟩
  | .hbm, ⟨29, _⟩ => ⟨S800000x64, .f32⟩
  | .hbm, ⟨30, _⟩ => ⟨S_, .i32⟩
  | .hbm, ⟨31, _⟩ => ⟨S800000, .i32⟩
  | .hbm, ⟨32, _⟩ => ⟨S800000, .i1⟩
  | .hbm, ⟨33, _⟩ => ⟨S_, .i32⟩
  | .hbm, ⟨34, _⟩ => ⟨S800000, .i32⟩
  | .hbm, ⟨35, _⟩ => ⟨S800000, .i32⟩
  | .hbm, ⟨36, _⟩ => ⟨S800000, .i32⟩
  | .hbm, ⟨37, _⟩ => ⟨S800000x1, .i32⟩
  | .hbm, ⟨38, _⟩ => ⟨S1, .i32⟩
  | .hbm, ⟨39, _⟩ => ⟨S_, .i32⟩
  | .hbm, ⟨40, _⟩ => ⟨S800000x1, .i32⟩
  | .hbm, ⟨41, _⟩ => ⟨S800000x1, .i1⟩
  | .hbm, ⟨42, _⟩ => ⟨S1x1, .i32⟩
  | .hbm, ⟨43, _⟩ => ⟨S800000x1, .i32⟩
  | .hbm, ⟨44, _⟩ => ⟨S800000x1, .i1⟩
  | .hbm, ⟨45, _⟩ => ⟨S800000x1, .i1⟩
  | .hbm, ⟨46, _⟩ => ⟨S_, .i1⟩
  | .hbm, ⟨47, _⟩ => ⟨S800000, .i1⟩
  | .hbm, ⟨48, _⟩ => ⟨S800000x64, .f32⟩
  | .hbm, ⟨49, _⟩ => ⟨S800000x64, .i1⟩
  | .hbm, ⟨50, _⟩ => ⟨S_, .f32⟩
  | .hbm, ⟨51, _⟩ => ⟨S800000x64, .f32⟩
  | .hbm, ⟨52, _⟩ => ⟨S800000x64, .f32⟩
  | .hbm, ⟨53, _⟩ => ⟨S800000x1, .f32⟩
  | .hbm, ⟨54, _⟩ => ⟨S1x100, .f32⟩
  | .hbm, ⟨55, _⟩ => ⟨S128x64, .f32⟩
  | .hbm, ⟨56, _⟩ => ⟨S64x128, .f32⟩
  | .hbm, ⟨57, _⟩ => ⟨S128x64, .f32⟩
  | .hbm, ⟨58, _⟩ => ⟨S64x128, .f32⟩
  | .hbm, ⟨59, _⟩ => ⟨S128x100, .f32⟩
  | .hbm, ⟨60, _⟩ => ⟨S100x128, .f32⟩
  | .hbm, ⟨61, _⟩ => ⟨S128x64, .f32⟩
  | .hbm, ⟨62, _⟩ => ⟨S800000x64, .f32⟩
  | .local _ .vmem, ⟨0, _⟩ => ⟨S4000x64, .f32⟩
  | .local _ .vmem, ⟨1, _⟩ => ⟨S4000x64, .f32⟩
  | .local _ .vmem, ⟨2, _⟩ => ⟨S4000x64, .f32⟩
  | .local _ .vmem, ⟨3, _⟩ => ⟨S4000x64, .f32⟩
  | .local _ .vmem, ⟨4, _⟩ => ⟨S4000x1, .f32⟩
  | .local _ .vmem, ⟨5, _⟩ => ⟨S4000x1, .f32⟩
  | .local _ .vmem, ⟨6, _⟩ => ⟨S1x100, .f32⟩
  | .local _ .vmem, ⟨7, _⟩ => ⟨S64x128, .f32⟩
  | .local _ .vmem, ⟨8, _⟩ => ⟨S64x128, .f32⟩
  | .local _ .vmem, ⟨9, _⟩ => ⟨S100x128, .f32⟩
  | .local _ .vmem, ⟨10, _⟩ => ⟨S128x64, .f32⟩
  | .local _ .vmem, ⟨11, _⟩ => ⟨S4000x64, .f32⟩
  | .local _ .vmem, ⟨12, _⟩ => ⟨S4000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v0 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_v14 : Ref sig .tc := ⟨.hbm, 49, rfl⟩
abbrev main_call1_cst : Ref sig .tc := ⟨.hbm, 50, rfl⟩
abbrev main_call1_v15 : Ref sig .tc := ⟨.hbm, 51, rfl⟩
abbrev main_v1 : Ref sig .tc := ⟨.hbm, 52, rfl⟩
abbrev main_v2 : Ref sig .tc := ⟨.hbm, 53, rfl⟩
abbrev main_v3 : Ref sig .tc := ⟨.hbm, 54, rfl⟩
abbrev main_v4 : Ref sig .tc := ⟨.hbm, 55, rfl⟩
abbrev main_v5 : Ref sig .tc := ⟨.hbm, 56, rfl⟩
abbrev main_v6 : Ref sig .tc := ⟨.hbm, 57, rfl⟩
abbrev main_v7 : Ref sig .tc := ⟨.hbm, 58, rfl⟩
abbrev main_v8 : Ref sig .tc := ⟨.hbm, 59, rfl⟩
abbrev main_v9 : Ref sig .tc := ⟨.hbm, 60, rfl⟩
abbrev main_v10 : Ref sig .tc := ⟨.hbm, 61, rfl⟩
abbrev main_v11 : Ref sig .tc := ⟨.hbm, 62, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x100 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S100x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S4000x64 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  shapeCasts_S800000_S800000x1 : S800000.ShapeCasts S800000x1
  shapeCasts_S100_S1x100 : S100.ShapeCasts S1x100
  slices_S128x228_S128x64_0_0 : S128x228.Slices ![0, 0] S128x64
  transposes_S128x64_S64x128_1_0 : S128x64.Transposes [1, 0] S64x128
  slices_S128x228_S128x64_0_64 : S128x228.Slices ![0, 64] S128x64
  slices_S128x228_S128x100_0_128 : S128x228.Slices ![0, 128] S128x100
  transposes_S128x100_S100x128_1_0 : S128x100.Transposes [1, 0] S100x128
  transposes_S64x128_S128x64_1_0 : S64x128.Transposes [1, 0] S128x64
  inb_S1x100_S1x100_0_0 : ∀ a, (![0, 0] : Fin 2 → Nat) a + S1x100.size a ≤ S1x100.size a
  h_S1x100 : 0 < S1x100.numel
  shapeCasts_S1x100_S1x100 : S1x100.ShapeCasts S1x100
  inb_S4000x1_S4000x1_0_0 : ∀ a, (![0, 0] : Fin 2 → Nat) a + S4000x1.size a ≤ S4000x1.size a
  h_S4000x1 : 0 < S4000x1.numel
  shapeCasts_S4000x1_S4000x1 : S4000x1.ShapeCasts S4000x1
  broadcasts_S1x100_S4000x100 : S1x100.Broadcasts S4000x100
  broadcasts_S4000x1_S4000x100 : S4000x1.Broadcasts S4000x100
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S100x128_S100x128_0_0 : ∀ a, (![0, 0] : Fin 2 → Nat) a + S100x128.size a ≤ S100x128.size a
  h_S100x128 : 0 < S100x128.numel
  shapeCasts_S100x128_S100x128 : S100x128.ShapeCasts S100x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  gather_S50000x64_S800000x1_S800000x64_1_0_n_n_0_1_164_wf : GatherDims.WF S50000x64 S800000x1 S800000x64 [1] [0] [] [0] [] 1 ![1, 64]
  dot_S4000x64_S64x128_S4000x128_1_0_0_1_n_n_wf : DotDims.WF S4000x64 S64x128 S4000x128 [1] [0] [0] [1] [] []
  dot_S4000x100_S100x128_S4000x128_1_0_0_1_n_n_wf : DotDims.WF S4000x100 S100x128 S4000x128 [1] [0] [0] [1] [] []
  dot_S4000x128_S128x64_S4000x64_1_0_0_1_n_n_wf : DotDims.WF S4000x128 S128x64 S4000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x64.size a ≤ S800000x64.size a
  hwx0_0 : ∀ i : grid0.Coords, EltTy.bits .f32 = 32 ∨ (Rect.block (s := S800000x64) S4000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x64.size a ≤ S800000x64.size a
  hwx0_1 : ∀ i : grid0.Coords, EltTy.bits .f32 = 32 ∨ (Rect.block (s := S800000x64) S4000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x1.size a ≤ S800000x1.size a
  hwx0_2 : ∀ i : grid0.Coords, EltTy.bits .f32 = 32 ∨ (Rect.block (s := S800000x1) S4000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x100.size a ≤ S1x100.size a
  hwx0_3 : ∀ i : grid0.Coords, EltTy.bits .f32 = 32 ∨ (Rect.block (s := S1x100) S1x100.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .f32 = 32 ∨ (Rect.block (s := S64x128) S64x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x128.size a ≤ S64x128.size a
  hwx0_5 : ∀ i : grid0.Coords, EltTy.bits .f32 = 32 ∨ (Rect.block (s := S64x128) S64x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S100x128.size a ≤ S100x128.size a
  hwx0_6 : ∀ i : grid0.Coords, EltTy.bits .f32 = 32 ∨ (Rect.block (s := S100x128) S100x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S4000x64.size a ≤ S800000x64.size a
  hwx0_8 : ∀ i : grid0.Coords, EltTy.bits .f32 = 32 ∨ (Rect.block (s := S800000x64) S4000x64.size (cc0_transform_8 i) (hinb0_8 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x64_S64x128_S4000x128_1_0_0_1_n_n : DotDims S4000x64 S64x128 S4000x128 where
  lhsContracting := [1]
  rhsContracting := [0]
  lhsNonContracting := [0]
  rhsNonContracting := [1]
  lhsBatch := []
  rhsBatch := []
  wf := dot_S4000x64_S64x128_S4000x128_1_0_0_1_n_n_wf
def dot_S4000x100_S100x128_S4000x128_1_0_0_1_n_n : DotDims S4000x100 S100x128 S4000x128 where
  lhsContracting := [1]
  rhsContracting := [0]
  lhsNonContracting := [0]
  rhsNonContracting := [1]
  lhsBatch := []
  rhsBatch := []
  wf := dot_S4000x100_S100x128_S4000x128_1_0_0_1_n_n_wf
def dot_S4000x128_S128x64_S4000x64_1_0_0_1_n_n : DotDims S4000x128 S128x64 S4000x64 where
  lhsContracting := [1]
  rhsContracting := [0]
  lhsNonContracting := [0]
  rhsNonContracting := [1]
  lhsBatch := []
  rhsBatch := []
  wf := dot_S4000x128_S128x64_S4000x64_1_0_0_1_n_n_wf

abbrev win0_0 : Pipeline.Window sig grid0 :=
  Pipeline.Window.ofSpec (Memref.whole main_v0) S4000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S4000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x100.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S64x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S100x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S4000x64.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x64 : Shape := ⟨2, ![50000, 64]⟩
abbrev S800000 : Shape := ⟨1, ![800000]⟩
abbrev S100 : Shape := ⟨1, ![100]⟩
abbrev S128x228 : Shape := ⟨2, ![128, 228]⟩
abbrev S64x128 : Shape := ⟨2, ![64, 128]⟩
abbrev S1x100 : Shape := ⟨2, ![1, 100]⟩
abbrev S800000x1 : Shape := ⟨2, ![800000, 1]⟩
abbrev S800000x100 : Shape := ⟨2, ![800000, 100]⟩
abbrev S_ : Shape := ⟨0, ![]⟩
abbrev S800000x64 : Shape := ⟨2, ![800000, 64]⟩
abbrev S800000x228 : Shape := ⟨2, ![800000, 228]⟩
abbrev S228x128 : Shape := ⟨2, ![228, 128]⟩
abbrev S800000x128 : Shape := ⟨2, ![800000, 128]⟩
abbrev S128x64 : Shape := ⟨2, ![128, 64]⟩

abbrev nBuf : Space → Nat
  | .hbm => 49
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S800000, .i32⟩
  | .hbm, ⟨2, _⟩ => ⟨S800000, .i32⟩
  | .hbm, ⟨3, _⟩ => ⟨S800000, .f32⟩
  | .hbm, ⟨4, _⟩ => ⟨S100, .f32⟩
  | .hbm, ⟨5, _⟩ => ⟨S128x228, .f32⟩
  | .hbm, ⟨6, _⟩ => ⟨S64x128, .f32⟩
  | .hbm, ⟨7, _⟩ => ⟨S1x100, .f32⟩
  | .hbm, ⟨8, _⟩ => ⟨S800000x1, .f32⟩
  | .hbm, ⟨9, _⟩ => ⟨S800000x100, .f32⟩
  | .hbm, ⟨10, _⟩ => ⟨S800000x100, .f32⟩
  | .hbm, ⟨11, _⟩ => ⟨S800000x100, .f32⟩
  | .hbm, ⟨12, _⟩ => ⟨S800000x100, .f32⟩
  | .hbm, ⟨13, _⟩ => ⟨S_, .f32⟩
  | .hbm, ⟨14, _⟩ => ⟨S800000x100, .f32⟩
  | .hbm, ⟨15, _⟩ => ⟨S800000x100, .f32⟩
  | .hbm, ⟨16, _⟩ => ⟨S800000x100, .f32⟩
  | .hbm, ⟨17, _⟩ => ⟨S_, .i32⟩
  | .hbm, ⟨18, _⟩ => ⟨S800000, .i32⟩
  | .hbm, ⟨19, _⟩ => ⟨S800000, .i1⟩
  | .hbm, ⟨20, _⟩ => ⟨S_, .i32⟩
  | .hbm, ⟨21, _⟩ => ⟨S800000, .i32⟩
  | .hbm, ⟨22, _⟩ => ⟨S800000, .i32⟩
  | .hbm, ⟨23, _⟩ => ⟨S800000, .i32⟩
  | .hbm, ⟨24, _⟩ => ⟨S800000x1, .i32⟩
  | .hbm, ⟨25, _⟩ => ⟨S800000x64, .f32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x64, .f32⟩
  | .hbm, ⟨35, _⟩ => ⟨S800000x228, .f32⟩
  | .hbm, ⟨36, _⟩ => ⟨S228x128, .f32⟩
  | .hbm, ⟨37, _⟩ => ⟨S800000x128, .f32⟩
  | .hbm, ⟨38, _⟩ => ⟨S800000x128, .f32⟩
  | .hbm, ⟨39, _⟩ => ⟨S800000x128, .f32⟩
  | .hbm, ⟨40, _⟩ => ⟨S_, .f32⟩
  | .hbm, ⟨41, _⟩ => ⟨S800000x128, .f32⟩
  | .hbm, ⟨42, _⟩ => ⟨S800000x128, .f32⟩
  | .hbm, ⟨43, _⟩ => ⟨S_, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S128x64, .f32⟩
  | .hbm, ⟨48, _⟩ => ⟨S800000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_1 : Ref sig .tc := ⟨.hbm, 26, rfl⟩
abbrev main_v16 : Ref sig .tc := ⟨.hbm, 27, rfl⟩
abbrev main_v17 : Ref sig .tc := ⟨.hbm, 28, rfl⟩
abbrev main_c_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩

abbrev nD : Nat := 1
abbrev τ : Topo := Topo.v7x

variable {F : FTy → Type} [FloatOps F]

class Facts₀ : Prop where
  bcast_S100_S1x100_1 : S100.BroadcastsInDim S1x100 (![1] : Fin 1 → Fin S1x100.rank)
  bcast_S800000_S800000x1_0 : S800000.BroadcastsInDim S800000x1 (![0] : Fin 1 → Fin S800000x1.rank)
  bcast_S1x100_S800000x100_0_1 : S1x100.BroadcastsInDim S800000x100 (![0, 1] : Fin 2 → Fin S800000x100.rank)
  bcast_S800000x1_S800000x100_0_1 : S800000x1.BroadcastsInDim S800000x100 (![0, 1] : Fin 2 → Fin S800000x100.rank)
  bcast_S_S800000x100 : S_.BroadcastsInDim S800000x100 (![] : Fin 0 → Fin S800000x100.rank)
  bcast_S_S800000 : S_.BroadcastsInDim S800000 (![] : Fin 0 → Fin S800000.rank)
  concatenates_S800000x64_S800000x64_S800000x100_S800000x228_d1 : Shape.Concatenates [S800000x64, S800000x64, S800000x100] S800000x228 1
  transposes_S128x228_S228x128_1_0 : S128x228.Transposes [1, 0] S228x128
  bcast_S_S800000x128 : S_.BroadcastsInDim S800000x128 (![] : Fin 0 → Fin S800000x128.rank)
  transposes_S64x128_S128x64_1_0 : S64x128.Transposes [1, 0] S128x64
  gather_S50000x64_S800000x1_S800000x64_1_0_n_n_0_1_164_wf : GatherDims.WF S50000x64 S800000x1 S800000x64 [1] [0] [] [0] [] 1 ![1, 64]
  dot_S800000x228_S228x128_S800000x128_1_0_0_1_n_n_wf : DotDims.WF S800000x228 S228x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x228_S228x128_S800000x128_1_0_0_1_n_n : DotDims S800000x228 S228x128 S800000x128 where
  lhsContracting := [1]
  rhsContracting := [0]
  lhsNonContracting := [0]
  rhsNonContracting := [1]
  lhsBatch := []
  rhsBatch := []
  wf := dot_S800000x228_S228x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.PreRange.lean ====
/-
  The precondition, read back: beside the finiteness of the float inputs it says that every source and destination node
  index lies in [-50000, 50000), read signed — the indices NumPy-style indexing of a 50000-row table accepts.
  The predicate is a conjunction of `jnp.all`s; each `all` is a reduction by `and` from 1, so when the whole is 1 every
  compared entry is 1, and a signed compare word that is 1 is the inequality of the signed readings.
-/
import proofs.«410212_j14929306321382_1_alg».proof.Pre_finite_inputs
import Idealize.ShloMosaic.Lib.ReduceAll
import Idealize.ShloMosaic.Lib.ValueIdx

noncomputable section

namespace Cert.EdgeMlp.PreRange

open Idealize.ShloMosaic Idealize.ShloMosaic.ValueIdx Cert.Pre_finite_inputs

variable [Cert.Pre_finite_inputs.Facts] {F : FTy → Type} [FloatOps F]

instance : Subsingleton S_.Idx := ⟨fun a b => funext fun d => d.elim0⟩

theorem negN : (BitVec.ofNat 32 4294917296).toInt = -50000 := by decide
theorem posN : (BitVec.ofNat 32 50000).toInt = 50000 := by decide

/-- Both index inputs lie in [-50000, 50000) at every entry. -/
theorem range_of_pre (a0 : FVec F S50000x64 .f32) (a1 a2 : IVec S800000 32) (a3 : FVec F S800000 .f32) (a4 : FVec F S100 .f32)
    (a5 : FVec F S128x228 .f32) (a6 : FVec F S64x128 .f32) (h : fn (F := F) a0 a1 a2 a3 a4 a5 a6 = (fun _ => 1#1)) :
    (∀ i, -(50000 : Int) ≤ (a1 i).toInt ∧ (a1 i).toInt < 50000) ∧ (∀ i, -(50000 : Int) ≤ (a2 i).toInt ∧ (a2 i).toInt < 50000) := by
  have e := congrFun h ix0
  unfold fn fn_part1 fn_part2 at e
  dsimp only at e
  simp only [andi] at e
  rw [IntOp.andi_eq_one, IntOp.andi_eq_one] at e
  obtain ⟨⟨-, h1⟩, h2⟩ := e
  refine ⟨fun i => ?_, fun i => ?_⟩
  · have : IntOp.andi (IntOp.cmpi .sge (a1 i) (BitVec.ofNat 32 4294917296)) (IntOp.cmpi .slt (a1 i) (BitVec.ofNat 32 50000)) = 1#1 :=
      Host.reduce_andi_all _ _ _ _ _ h1 i
    rw [IntOp.andi_eq_one] at this
    obtain ⟨ha, hb⟩ := this
    have ha' := IntOp.cmpi_sge.1 ha
    have hb' := IntOp.cmpi_slt.1 hb
    exact ⟨negN ▸ ha', posN ▸ hb'⟩
  · have : IntOp.andi (IntOp.cmpi .sge (a2 i) (BitVec.ofNat 32 4294917296)) (IntOp.cmpi .slt (a2 i) (BitVec.ofNat 32 50000)) = 1#1 :=
      Host.reduce_andi_all _ _ _ _ _ h2 i
    rw [IntOp.andi_eq_one] at this
    obtain ⟨ha, hb⟩ := this
    have ha' := IntOp.cmpi_sge.1 ha
    have hb' := IntOp.cmpi_slt.1 hb
    exact ⟨negN ▸ ha', posN ▸ hb'⟩

end Cert.EdgeMlp.PreRange

end
-- ==== Proof.KernelDots.lean ====
/-
  The kernel's three matrix products, read at an index. Each is a plain rows × columns product into a zero accumulator,
  so its entry (p, q) is the sum over the contracted axis of left[p, k] · right[k, q]: the contraction's index is its one
  coordinate, the left operand is read at (row of the output, k) and the right at (k, column of the output).
-/
import proofs.«410212_j14929306321382_1_alg».proof.Proof.Gen.KernelIdeal
import Idealize.ShloMosaic.Lib.ValueIdx
import Idealize.ShloMosaic.PureOps.Ideal.Laws

noncomputable section

namespace Cert.KernelIdeal.Dots

open Cert.KernelIdeal Idealize.ShloMosaic Idealize.ShloMosaic.ValueIdx

/-! ## [4000 × 64] by [64 × 128] -/

theorem lhsA_0 (i : S4000x128.Idx) (q : dot_S4000x64_S64x128_S4000x128_1_0_0_1_n_n.contr.Idx) :
    (dot_S4000x64_S64x128_S4000x128_1_0_0_1_n_n.lhsIdx i q 0).val = (i 0).val := by
  unfold DotDims.lhsIdx
  rw [dif_neg (show ¬(0 : Fin S4000x64.rank) ∈ dot_S4000x64_S64x128_S4000x128_1_0_0_1_n_n.lhsBatch by decide), dif_pos (show (0 : Fin S4000x64.rank) ∈ dot_S4000x64_S64x128_S4000x128_1_0_0_1_n_n.lhsNonContracting by decide)]
  rfl
theorem lhsA_1 (i : S4000x128.Idx) (q : dot_S4000x64_S64x128_S4000x128_1_0_0_1_n_n.contr.Idx) :
    (dot_S4000x64_S64x128_S4000x128_1_0_0_1_n_n.lhsIdx i q 1).val = (q ⟨0, by decide⟩).val :=
  dot_S4000x64_S64x128_S4000x128_1_0_0_1_n_n.lhsIdx_val_of_single rfl i q
theorem rhsA_0 (i : S4000x128.Idx) (q : dot_S4000x64_S64x128_S4000x128_1_0_0_1_n_n.contr.Idx) :
    (dot_S4000x64_S64x128_S4000x128_1_0_0_1_n_n.rhsIdx i q 0).val = (q ⟨0, by decide⟩).val :=
  dot_S4000x64_S64x128_S4000x128_1_0_0_1_n_n.rhsIdx_val_of_single rfl i q
theorem rhsA_1 (i : S4000x128.Idx) (q : dot_S4000x64_S64x128_S4000x128_1_0_0_1_n_n.contr.Idx) :
    (dot_S4000x64_S64x128_S4000x128_1_0_0_1_n_n.rhsIdx i q 1).val = (i 1).val := by
  unfold DotDims.rhsIdx
  rw [dif_neg (show ¬(1 : Fin S64x128.rank) ∈ dot_S4000x64_S64x128_S4000x128_1_0_0_1_n_n.rhsBatch by decide), dif_pos (show (1 : Fin S64x128.rank) ∈ dot_S4000x64_S64x128_S4000x128_1_0_0_1_n_n.rhsNonContracting by decide)]
  rfl

/-- Entry (p, q) of an edge-features block times a 64-row weight block. -/
theorem matmulA_apply {φ₁ φ₂ : FTy} (lhs : FVec Ideal S4000x64 φ₁) (rhs : FVec Ideal S64x128 φ₂) (p : Fin 4000) (q : Fin 128) :
    matmul dot_S4000x64_S64x128_S4000x128_1_0_0_1_n_n none lhs rhs (constant S4000x128 .f32 0x00000000#32) (ix2 p q)
      = ∑ k : Fin 64, lhs (ix2 p k) * rhs (ix2 k q) := by
  simp only [matmul]
  rw [Ideal.matmul_constant_zero_apply, ← Equiv.sum_comp (contrEquiv1 dot_S4000x64_S64x128_S4000x128_1_0_0_1_n_n 64 rfl rfl).symm]
  refine Finset.sum_congr rfl fun k _ => ?_
  have hk := contrEquiv1_symm_val dot_S4000x64_S64x128_S4000x128_1_0_0_1_n_n 64 rfl rfl k
  have el : dot_S4000x64_S64x128_S4000x128_1_0_0_1_n_n.lhsIdx (ix2 p q) ((contrEquiv1 dot_S4000x64_S64x128_S4000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S4000x64_S64x128_S4000x128_1_0_0_1_n_n.rhsIdx (ix2 p q) ((contrEquiv1 dot_S4000x64_S64x128_S4000x128_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-! ## [4000 × 100] by [100 × 128] -/

theorem lhsB_0 (i : S4000x128.Idx) (q : dot_S4000x100_S100x128_S4000x128_1_0_0_1_n_n.contr.Idx) :
    (dot_S4000x100_S100x128_S4000x128_1_0_0_1_n_n.lhsIdx i q 0).val = (i 0).val := by
  unfold DotDims.lhsIdx
  rw [dif_neg (show ¬(0 : Fin S4000x100.rank) ∈ dot_S4000x100_S100x128_S4000x128_1_0_0_1_n_n.lhsBatch by decide), dif_pos (show (0 : Fin S4000x100.rank) ∈ dot_S4000x100_S100x128_S4000x128_1_0_0_1_n_n.lhsNonContracting by decide)]
  rfl
theorem lhsB_1 (i : S4000x128.Idx) (q : dot_S4000x100_S100x128_S4000x128_1_0_0_1_n_n.contr.Idx) :
    (dot_S4000x100_S100x128_S4000x128_1_0_0_1_n_n.lhsIdx i q 1).val = (q ⟨0, by decide⟩).val :=
  dot_S4000x100_S100x128_S4000x128_1_0_0_1_n_n.lhsIdx_val_of_single rfl i q
theorem rhsB_0 (i : S4000x128.Idx) (q : dot_S4000x100_S100x128_S4000x128_1_0_0_1_n_n.contr.Idx) :
    (dot_S4000x100_S100x128_S4000x128_1_0_0_1_n_n.rhsIdx i q 0).val = (q ⟨0, by decide⟩).val :=
  dot_S4000x100_S100x128_S4000x128_1_0_0_1_n_n.rhsIdx_val_of_single rfl i q
theorem rhsB_1 (i : S4000x128.Idx) (q : dot_S4000x100_S100x128_S4000x128_1_0_0_1_n_n.contr.Idx) :
    (dot_S4000x100_S100x128_S4000x128_1_0_0_1_n_n.rhsIdx i q 1).val = (i 1).val := by
  unfold DotDims.rhsIdx
  rw [dif_neg (show ¬(1 : Fin S100x128.rank) ∈ dot_S4000x100_S100x128_S4000x128_1_0_0_1_n_n.rhsBatch by decide), dif_pos (show (1 : Fin S100x128.rank) ∈ dot_S4000x100_S100x128_S4000x128_1_0_0_1_n_n.rhsNonContracting by decide)]
  rfl

/-- Entry (p, q) of a radial-basis block times the 100-row weight block. -/
theorem matmulB_apply {φ₁ φ₂ : FTy} (lhs : FVec Ideal S4000x100 φ₁) (rhs : FVec Ideal S100x128 φ₂) (p : Fin 4000) (q : Fin 128) :
    matmul dot_S4000x100_S100x128_S4000x128_1_0_0_1_n_n none lhs rhs (constant S4000x128 .f32 0x00000000#32) (ix2 p q)
      = ∑ k : Fin 100, lhs (ix2 p k) * rhs (ix2 k q) := by
  simp only [matmul]
  rw [Ideal.matmul_constant_zero_apply, ← Equiv.sum_comp (contrEquiv1 dot_S4000x100_S100x128_S4000x128_1_0_0_1_n_n 100 rfl rfl).symm]
  refine Finset.sum_congr rfl fun k _ => ?_
  have hk := contrEquiv1_symm_val dot_S4000x100_S100x128_S4000x128_1_0_0_1_n_n 100 rfl rfl k
  have el : dot_S4000x100_S100x128_S4000x128_1_0_0_1_n_n.lhsIdx (ix2 p q) ((contrEquiv1 dot_S4000x100_S100x128_S4000x128_1_0_0_1_n_n 100 rfl rfl).symm k) = ix2 p k := funext fun a => Fin.ext (by
    match a with
    | ⟨0, _⟩ => exact lhsB_0 _ _
    | ⟨1, _⟩ => exact (lhsB_1 _ _).trans hk)
  have er : dot_S4000x100_S100x128_S4000x128_1_0_0_1_n_n.rhsIdx (ix2 p q) ((contrEquiv1 dot_S4000x100_S100x128_S4000x128_1_0_0_1_n_n 100 rfl rfl).symm k) = ix2 k q := funext fun a => Fin.ext (by
    match a with
    | ⟨0, _⟩ => exact (rhsB_0 _ _).trans hk
    | ⟨1, _⟩ => exact rhsB_1 _ _)
  rw [el, er]

/-! ## [4000 × 128] by [128 × 64] -/

theorem lhsC_0 (i : S4000x64.Idx) (q : dot_S4000x128_S128x64_S4000x64_1_0_0_1_n_n.contr.Idx) :
    (dot_S4000x128_S128x64_S4000x64_1_0_0_1_n_n.lhsIdx i q 0).val = (i 0).val := by
  unfold DotDims.lhsIdx
  rw [dif_neg (show ¬(0 : Fin S4000x128.rank) ∈ dot_S4000x128_S128x64_S4000x64_1_0_0_1_n_n.lhsBatch by decide), dif_pos (show (0 : Fin S4000x128.rank) ∈ dot_S4000x128_S128x64_S4000x64_1_0_0_1_n_n.lhsNonContracting by decide)]
  rfl
theorem lhsC_1 (i : S4000x64.Idx) (q : dot_S4000x128_S128x64_S4000x64_1_0_0_1_n_n.contr.Idx) :
    (dot_S4000x128_S128x64_S4000x64_1_0_0_1_n_n.lhsIdx i q 1).val = (q ⟨0, by decide⟩).val :=
  dot_S4000x128_S128x64_S4000x64_1_0_0_1_n_n.lhsIdx_val_of_single rfl i q
theorem rhsC_0 (i : S4000x64.Idx) (q : dot_S4000x128_S128x64_S4000x64_1_0_0_1_n_n.contr.Idx) :
    (dot_S4000x128_S128x64_S4000x64_1_0_0_1_n_n.rhsIdx i q 0).val = (q ⟨0, by decide⟩).val :=
  dot_S4000x128_S128x64_S4000x64_1_0_0_1_n_n.rhsIdx_val_of_single rfl i q
theorem rhsC_1 (i : S4000x64.Idx) (q : dot_S4000x128_S128x64_S4000x64_1_0_0_1_n_n.contr.Idx) :
    (dot_S4000x128_S128x64_S4000x64_1_0_0_1_n_n.rhsIdx i q 1).val = (i 1).val := by
  unfold DotDims.rhsIdx
  rw [dif_neg (show ¬(1 : Fin S128x64.rank) ∈ dot_S4000x128_S128x64_S4000x64_1_0_0_1_n_n.rhsBatch by decide), dif_pos (show (1 : Fin S128x64.rank) ∈ dot_S4000x128_S128x64_S4000x64_1_0_0_1_n_n.rhsNonContracting by decide)]
  rfl

/-- Entry (p, q) of the hidden-activation block times the output weight block. -/
theorem matmulC_apply {φ₁ φ₂ : FTy} (lhs : FVec Ideal S4000x128 φ₁) (rhs : FVec Ideal S128x64 φ₂) (p : Fin 4000) (q : Fin 64) :
    matmul dot_S4000x128_S128x64_S4000x64_1_0_0_1_n_n none lhs rhs (constant S4000x64 .f32 0x00000000#32) (ix2 p q)
      = ∑ k : Fin 128, lhs (ix2 p k) * rhs (ix2 k q) := by
  simp only [matmul]
  rw [Ideal.matmul_constant_zero_apply, ← Equiv.sum_comp (contrEquiv1 dot_S4000x128_S128x64_S4000x64_1_0_0_1_n_n 128 rfl rfl).symm]
  refine Finset.sum_congr rfl fun k _ => ?_
  have hk := contrEquiv1_symm_val dot_S4000x128_S128x64_S4000x64_1_0_0_1_n_n 128 rfl rfl k
  have el : dot_S4000x128_S128x64_S4000x64_1_0_0_1_n_n.lhsIdx (ix2 p q) ((contrEquiv1 dot_S4000x128_S128x64_S4000x64_1_0_0_1_n_n 128 rfl rfl).symm k) = ix2 p k := funext fun a => Fin.ext (by
    match a with
    | ⟨0, _⟩ => exact lhsC_0 _ _
    | ⟨1, _⟩ => exact (lhsC_1 _ _).trans hk)
  have er : dot_S4000x128_S128x64_S4000x64_1_0_0_1_n_n.rhsIdx (ix2 p q) ((contrEquiv1 dot_S4000x128_S128x64_S4000x64_1_0_0_1_n_n 128 rfl rfl).symm k) = ix2 k q := funext fun a => Fin.ext (by
    match a with
    | ⟨0, _⟩ => exact (rhsC_0 _ _).trans hk
    | ⟨1, _⟩ => exact rhsC_1 _ _)
  rw [el, er]

end Cert.KernelIdeal.Dots

end
-- ==== Proof.Spec.lean ====
/-
  The function both programs compute, index by index, on the extended reals.

  For edge `e` and hidden unit `j` the pre-activation is the row `x_e = [h_src(e) | h_dst(e) | rbf_e]` of 228 entries against
  row `j` of `W1`, where `rbf_e[r] = exp(-10 · (μ_r - d_e)²)`. Written as ONE sum over the 228 columns it is the reference's
  product with the concatenated row; written as THREE sums over the column ranges [0, 64), [64, 128) and [128, 228) it is
  the kernel's three products added. The two agree because a finite sum over `Fin 228` splits at 128 and then at 64 in
  any commutative monoid: no finiteness of the entries is used. The hidden activation is `z · (1 / (1 + e^{-z}))` and the
  result is its product with `W2` transposed.
-/
import Idealize.ShloMosaic.PureOps.Ideal
import Idealize.ShloMosaic.PureOps.Ideal.Laws
import Idealize.ShloMosaic.Lib.ValueIdx
import Mathlib.Algebra.BigOperators.Fin

noncomputable section

namespace Cert.EdgeMlp

open Idealize.ShloMosaic Idealize.ShloMosaic.ValueIdx

/-- The float words 1.0 and -10.0 (the latter is -1/STEP with STEP = 0.1), as both programs carry them. -/
def one : EReal := Ideal.ofBits .f32 0x3F800000#32
def negTen : EReal := Ideal.ofBits .f32 0xC1200000#32

/-- SiLU as both programs spell it: `z · (1 / (1 + e^{-z}))`. -/
def silu (z : EReal) : EReal := z * Ideal.div one (one + Ideal.exp (-z))

/-- One Gaussian radial basis value, `exp(-10 · (μ - d)²)`. -/
def rbf (μ d : EReal) : EReal := Ideal.exp (negTen * ((μ - d) * (μ - d)))

/-- Where the three pieces of the concatenated row sit among its 228 columns. -/
def colS (k : Fin 64) : Fin 228 := ⟨k.val, by omega⟩
def colD (k : Fin 64) : Fin 228 := ⟨64 + k.val, by omega⟩
def colR (r : Fin 100) : Fin 228 := ⟨128 + r.val, by omega⟩

/-- The hidden pre-activation of edge `e`, unit `j`, the three column ranges summed apart. -/
def pre (HS HD : (⟨2, ![800000, 64]⟩ : Shape).Idx → EReal) (en : (⟨1, ![800000]⟩ : Shape).Idx → EReal)
    (mu : (⟨1, ![100]⟩ : Shape).Idx → EReal) (W1 : (⟨2, ![128, 228]⟩ : Shape).Idx → EReal) (e : Fin 800000) (j : Fin 128) : EReal :=
  (∑ k : Fin 64, HS (ix2 e k) * W1 (ix2 j (colS k)) + ∑ k : Fin 64, HD (ix2 e k) * W1 (ix2 j (colD k)))
    + ∑ r : Fin 100, rbf (mu (ix1 r)) (en (ix1 e)) * W1 (ix2 j (colR r))

/-- The result: entry (e, o) is the sum over the 128 hidden units of SiLU of the pre-activation times `W2[o, j]`. -/
def G (HS HD : (⟨2, ![800000, 64]⟩ : Shape).Idx → EReal) (en : (⟨1, ![800000]⟩ : Shape).Idx → EReal)
    (mu : (⟨1, ![100]⟩ : Shape).Idx → EReal) (W1 : (⟨2, ![128, 228]⟩ : Shape).Idx → EReal)
    (W2 : (⟨2, ![64, 128]⟩ : Shape).Idx → EReal) : (⟨2, ![800000, 64]⟩ : Shape).Idx → EReal :=
  fun i => ∑ j : Fin 128, silu (pre HS HD en mu W1 (i 0) j) * W2 (ix2 (i 1) j)

/-- A sum over the 228 columns is the sums over its three ranges. -/
theorem sum_split (f : Fin 228 → EReal) :
    ∑ k : Fin 228, f k = (∑ k : Fin 64, f (colS k) + ∑ k : Fin 64, f (colD k)) + ∑ r : Fin 100, f (colR r) := by
  have h1 := Fin.sum_univ_add (M := EReal) (a := 128) (b := 100) f
  have h2 := Fin.sum_univ_add (M := EReal) (a := 64) (b := 64) (fun i => f (Fin.castAdd 100 i))
  rw [h2] at h1
  exact h1

/-- The kernel multiplies the scale in first: `(-10 · δ) · δ = -10 · (δ · δ)`. -/
theorem rbf_assoc (μ d : EReal) : Ideal.exp ((negTen * (μ - d)) * (μ - d)) = rbf μ d := by
  unfold rbf
  rw [mul_assoc]

/-- The kernel negates by subtracting from zero. -/
theorem silu_zero_sub (z : EReal) : z * Ideal.div one (one + Ideal.exp (0 - z)) = silu z := by
  unfold silu
  rw [sub_eq_add_neg, zero_add]

end Cert.EdgeMlp

end
-- ==== Proof.KernelPayload.lean ====
/-
  What the kernel body computes for one block of 4000 edges, entry by entry.

  From the blocks it loads — the centres μ as a row, the edge norms as a column, the gathered source and destination rows,
  the three pieces of `W1` transposed and `W2` transposed — the pre-activation at (p, j) is the three products summed:
  source rows against the first piece, destination rows against the second, and the radial basis values
  exp((-10 · (μ_r - d_p)) · (μ_r - d_p)) against the third. The stored block at (p, q) is the sum over the 128 hidden units of
  z · (1 / (1 + e^{0 - z})) against `W2` transposed. The changes of float format are the identity on the extended reals; a
  shape cast to the same shape is the identity; the row and the column are broadcast by repeating them.
-/
import proofs.«410212_j14929306321382_1_alg».proof.Proof.Gen.KernelIdeal.Skeleton
import proofs.«410212_j14929306321382_1_alg».proof.Proof.KernelDots
import proofs.«410212_j14929306321382_1_alg».proof.Proof.Spec
import Idealize.ShloMosaic.Lib.Pipeline.Value
import Idealize.ShloMosaic.Lib.ValueLayout

noncomputable section

namespace Cert.KernelIdeal.Payload

open Cert.KernelIdeal Cert.KernelIdeal.Gen Cert.KernelIdeal.Dots Cert.EdgeMlp
open Idealize.ShloMosaic Idealize.ShloMosaic.ValueIdx

/-- The pre-activation of row `p` of a block, unit `j`, from the loaded blocks. -/
def zblk (mu : FVec Ideal S1x100 .f32) (en : FVec Ideal S4000x1 .f32) (hs hd : FVec Ideal S4000x64 .f32)
    (w1s w1d : FVec Ideal S64x128 .f32) (w1r : FVec Ideal S100x128 .f32) (p : Fin 4000) (j : Fin 128) : EReal :=
  (∑ k : Fin 64, hs (ix2 p k) * w1s (ix2 k j) + ∑ k : Fin 64, hd (ix2 p k) * w1d (ix2 k j))
    + ∑ r : Fin 100, rbf (mu (ix2 (0 : Fin 1) r)) (en (ix2 p (0 : Fin 1))) * w1r (ix2 r j)

/-- The centres' row repeated down the 4000 rows. -/
theorem bcast_mu (mu : FVec Ideal S1x100 .f32) (p : Fin 4000) (r : Fin 100) :
    broadcastTo S4000x100 mu broadcasts_S1x100_S4000x100 (ix2 p r) = mu (ix2 (0 : Fin 1) r) :=
  broadcastTo_apply mu broadcasts_S1x100_S4000x100 (ix2 p r) (ix2 (0 : Fin 1) r) (fun a => match a with
    | ⟨0, _⟩ => rfl
    | ⟨1, _⟩ => rfl)

/-- The edge norms' column repeated along the 100 columns. -/
theorem bcast_en (en : FVec Ideal S4000x1 .f32) (p : Fin 4000) (r : Fin 100) :
    broadcastTo S4000x100 en broadcasts_S4000x1_S4000x100 (ix2 p r) = en (ix2 p (0 : Fin 1)) :=
  broadcastTo_apply en broadcasts_S4000x1_S4000x100 (ix2 p r) (ix2 p (0 : Fin 1)) (fun a => match a with
    | ⟨0, _⟩ => rfl
    | ⟨1, _⟩ => rfl)

/-- The body's pre-activation payload at (p, j). -/
theorem z_apply (mu : FVec Ideal S1x100 .f32) (en : FVec Ideal S4000x1 .f32) (hs hd : FVec Ideal S4000x64 .f32)
    (w1s w1d : FVec Ideal S64x128 .f32) (w1r : FVec Ideal S100x128 .f32) (p : Fin 4000) (j : Fin 128) :
    k0_pay2 (F := Ideal) mu en hs hd w1s w1d w1r (ix2 p j) = zblk mu en hs hd w1s w1d w1r p j := by
  unfold k0_pay2 zblk
  rw [addf_apply, addf_apply, matmulA_apply, matmulA_apply, matmulB_apply]
  simp only [shapeCast_self, truncf_apply]
  congr 1
  refine Finset.sum_congr rfl fun r _ => ?_
  congr 1
  show Ideal.exp ((Ideal.ofBits .f32 0xC1200000#32 * (broadcastTo S4000x100 mu broadcasts_S1x100_S4000x100 (ix2 p r) - broadcastTo S4000x100 en broadcasts_S4000x1_S4000x100 (ix2 p r)))
      * (broadcastTo S4000x100 mu broadcasts_S1x100_S4000x100 (ix2 p r) - broadcastTo S4000x100 en broadcasts_S4000x1_S4000x100 (ix2 p r))) = _
  rw [bcast_mu, bcast_en]
  exact rbf_assoc _ _

/-- The body's stored block at (p, q). -/
theorem out_apply (mu : FVec Ideal S1x100 .f32) (en : FVec Ideal S4000x1 .f32) (hs hd : FVec Ideal S4000x64 .f32)
    (w1s w1d : FVec Ideal S64x128 .f32) (w1r : FVec Ideal S100x128 .f32) (w2t : FVec Ideal S128x64 .f32) (p : Fin 4000) (q : Fin 64) :
    k0_pay1 (F := Ideal) (k0_pay2 mu en hs hd w1s w1d w1r) (k0_pay3 mu en hs hd w1s w1d w1r) (k0_pay4 (F := Ideal)) w2t (ix2 p q)
      = ∑ j : Fin 128, silu (zblk mu en hs hd w1s w1d w1r p j) * w2t (ix2 j q) := by
  unfold k0_pay1
  rw [matmulC_apply]
  refine Finset.sum_congr rfl fun j _ => ?_
  simp only [shapeCast_self, truncf_apply]
  congr 1
  show k0_pay2 (F := Ideal) mu en hs hd w1s w1d w1r (ix2 p j)
      * Ideal.div (Ideal.ofBits .f32 0x3F800000#32)
          (Ideal.ofBits .f32 0x3F800000#32 + Ideal.exp (Ideal.ofBits .f32 0x00000000#32 - k0_pay2 (F := Ideal) mu en hs hd w1s w1d w1r (ix2 p j))) = _
  rw [z_apply, Ideal.ofBits_zero_f32]
  exact silu_zero_sub _

end Cert.KernelIdeal.Payload

end
-- ==== Proof.LibTakeFill.lean ====
/-
  A fill-mode take is the bare gather on in-range indices.

  `jnp.take(x, idx, axis=0)` in its default mode computes: the index wrapped once (`idx + N` where `idx` is negative,
  else `idx`), a mask `0 ≤ w ≤ N - 1` of the wrapped index `w`, reduced by `and` over its unit axis and laid along the
  row, the gather at the wrapped index, and a select between the gathered row and a fill value. When every index lies
  in `[-N, N)`, read signed, the wrapped index lies in `[0, N)`, so the mask is all ones and the select returns the
  gathered row: the fill value is never read. Nothing here depends on what the gather itself reads.
-/
import Idealize.ShloMosaic.PureOps
import Idealize.ShloMosaic.PureOps.Reduce
import Idealize.ShloMosaic.Lib.Affine
import Idealize.ShloMosaic.Lib.StableHlo.Predicate

namespace Idealize.ShloMosaic.TakeFill

/-- An index wrapped once: `a + N` where `a` is negative, else `a`. -/
def wrap (N : Nat) (a : BitVec 32) : BitVec 32 :=
  Scalar.select (IntOp.cmpi .slt a 0#32) (IntOp.addi a (BitVec.ofNat 32 N)) a

/-- A word in `[-N, N)`, read signed, wraps into `[0, N)`: a negative one gains `N` without overflow. -/
theorem wrap_range (N : Nat) (hN : N < 2 ^ 31) (a : BitVec 32) (h1 : -(N : Int) ≤ a.toInt) (h2 : a.toInt < N) :
    0 ≤ (wrap N a).toInt ∧ (wrap N a).toInt < N := by
  have hNi : (BitVec.ofNat 32 N).toInt = N := StableHlo.Predicate.toInt_ofNat_small N hN
  have h0 : (0#32 : BitVec 32).toInt = 0 := by decide
  unfold wrap Scalar.select
  split
  · rename_i h
    have hneg : a.toInt < 0 := by
      have := IntOp.cmpi_slt.1 h
      rwa [h0] at this
    have hb : (a.toInt + (N : Int)).bmod (2 ^ 32) = a.toInt + N := Int.bmod_eq_of_le (by omega) (by omega)
    rw [IntOp.addi, BitVec.toInt_add, hNi, hb]
    omega
  · rename_i h
    have hnn : ¬ a.toInt < 0 := fun hh => h (IntOp.cmpi_slt.2 (by rw [h0]; exact hh))
    omega

/-- A left fold by `and` from 1 over words that are all 1 is 1. -/
theorem foldl_andi_one {ι : Type} (f : ι → BitVec 1) (l : List ι) (hf : ∀ n ∈ l, f n = 1#1) :
    l.foldl (fun r n => IntOp.andi r (f n)) 1#1 = 1#1 := by
  induction l with
  | nil => rfl
  | cons a l ih =>
    have e : IntOp.andi (1#1) (1#1) = 1#1 := by decide
    rw [List.foldl_cons, hf a (List.mem_cons.2 (Or.inl rfl)), e]
    exact ih fun n hn => hf n (List.mem_cons.2 (Or.inr hn))

/-- A reduce by `and` from 1 of a mask that is 1 everywhere is 1 everywhere. -/
theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ fun n _ => hx n

/-- THE TAKE. With every index in `[-N, N)`, the select of a fill-mode take over the row mask returns the gathered
    row: each wrapped index is in `[0, N)`, so each mask word is 1 and so is their reduction. -/
theorem take_fill_eq_gather {α : Type} {S0 sI sI1 s1 s11 sO sX : Shape} {axes : List (Fin sI1.rank)}
    (N M : Nat) (hN : N < 2 ^ 31) (hNM : M + 1 = N)
    {d1 : Fin S0.rank → Fin sI.rank} (b1 : S0.BroadcastsInDim sI d1)
    {d2 : Fin sI.rank → Fin sI1.rank} (b2 : sI.BroadcastsInDim sI1 d2)
    {d3 : Fin S0.rank → Fin sI1.rank} (b3 : S0.BroadcastsInDim sI1 d3)
    {d4 : Fin s1.rank → Fin s11.rank} (b4 : s1.BroadcastsInDim s11 d4)
    {d5 : Fin s11.rank → Fin sI1.rank} (b5 : s11.BroadcastsInDim sI1 d5)
    {d6 : Fin sI.rank → Fin sO.rank} (b6 : sI.BroadcastsInDim sO d6)
    (hr : sI1.ReducesTo axes sI) (h0 : 0 < S0.numel)
    (g : GatherDims sX sI1 sO) (x : sX.Idx → α) (fill : sO.Idx → α) (idx : IVec sI 32)
    (hidx : ∀ i, -(N : Int) ≤ (idx i).toInt ∧ (idx i).toInt < N) :
    let w : IVec sI1 32 := broadcastInDim sI1 d2 b2 (select (cmpi .slt idx (broadcastInDim sI d1 b1 (constantI S0 32 0#32)))
        (addi idx (broadcastInDim sI d1 b1 (constantI S0 32 (BitVec.ofNat 32 N)))) idx)
    select (broadcastInDim sO d6 b6 (Host.reduce IntOp.andi
        (andi (cmpi .sge w (broadcastInDim sI1 d3 b3 (constantI S0 32 0#32)))
              (cmpi .sle w (broadcastInDim sI1 d5 b5 (broadcastInDim s11 d4 b4 (constantI s1 32 (BitVec.ofNat 32 M))))))
        (constantI S0 1 1#1) hr h0)) (Host.gather g x w) fill
      = Host.gather g x w := by
  intro w
  have hw : ∀ k, ∃ i, w k = wrap N (idx i) := fun k => ⟨_, rfl⟩
  funext j
  show Scalar.select _ _ _ = _
  unfold Scalar.select
  rw [if_pos]
  show Host.reduce IntOp.andi _ _ hr h0 _ = 1#1
  refine reduce_andi_of_all _ _ hr h0 (fun _ => rfl) (fun k => ?_) _
  obtain ⟨i, hi⟩ := hw k
  show IntOp.andi (IntOp.cmpi .sge (w k) 0#32) (IntOp.cmpi .sle (w k) (BitVec.ofNat 32 M)) = 1#1
  rw [hi, IntOp.andi_eq_one, IntOp.cmpi_sge, IntOp.cmpi_sle]
  obtain ⟨h1, h2⟩ := wrap_range N hN (idx i) (hidx i).1 (hidx i).2
  have hM : (BitVec.ofNat 32 M).toInt = M := StableHlo.Predicate.toInt_ofNat_small M (by omega)
  have h0' : (0#32 : BitVec 32).toInt = 0 := by decide
  rw [hM, h0']
  omega

end Idealize.ShloMosaic.TakeFill
-- ==== Proof.KernelArrays.lean ====
/-
  The eight arrays the kernel's region reads, as functions of the program's arguments.

  Two are row gathers of the node features `h` by the source and the destination index, taken in fill mode: under the
  index range [-50000, 50000) the fill is never selected and each is the bare gather at the wrapped index. Two are the edge
  norms as a column and the centres `μ` as a row. Three are the column ranges [0, 64), [64, 128), [128, 228) of `W1`,
  transposed, and the last is `W2` transposed.
-/
import proofs.«410212_j14929306321382_1_alg».proof.Proof.Gen.KernelIdeal.Frame
import proofs.«410212_j14929306321382_1_alg».proof.Proof.LibTakeFill
import proofs.«410212_j14929306321382_1_alg».proof.Proof.Spec
import Idealize.ShloMosaic.Lib.StableHlo.Run
import Idealize.ShloMosaic.Lib.Pipeline.Value
import Idealize.ShloMosaic.Lib.ValueLayout

set_option maxRecDepth 16384

noncomputable section

namespace Cert.KernelIdeal.Arrays

open Cert.KernelIdeal Cert.KernelIdeal.Gen Cert.EdgeMlp
open Idealize.ShloMosaic Idealize.ShloMosaic.TcCoe Idealize.SL.Sem Idealize.ShloMosaic.StableHlo Idealize.ShloMosaic.ValueIdx

variable {F : FTy → Type} [FloatOps F]
variable (m : (ℓ : Loc nD τ sig) → Buf (Elt F) ℓ)

/-! ## Typed references: contents moved to a reference's own buffer type and back

A host operation inside a called function is written over references that carry their value's type, and moves contents
along the equation between that type and the buffer's. Every such move is the identity. -/

/-- There and back on one reference. -/
theorem ofBuf_toBuf {sig : RefSig} {Val : EltTy → Type} {T : BufTy} (x : StableHlo.TRef sig T) (v : T.Contents Val) :
    x.ofBuf (x.toBuf v) = v := by
  obtain ⟨r, rfl, _, _⟩ := x
  rfl

theorem ofBuf_arg0 (p1 p2 p3) (v : main_arg0.ty.Contents (Elt F)) :
    ((TRef.of (T := ⟨S50000x64, .f32⟩) main_arg0 p1 p2 p3).ofBuf v : S50000x64.Idx → Elt F .f32) = v := rfl
theorem ofBuf_arg1 (p1 p2 p3) (v : main_arg1.ty.Contents (Elt F)) :
    ((TRef.of (T := ⟨S800000, .i32⟩) main_arg1 p1 p2 p3).ofBuf v : IVec S800000 32) = v := rfl
theorem ofBuf_arg2 (p1 p2 p3) (v : main_arg2.ty.Contents (Elt F)) :
    ((TRef.of (T := ⟨S800000, .i32⟩) main_arg2 p1 p2 p3).ofBuf v : IVec S800000 32) = v := rfl
theorem toBuf_v0 (p1 p2 p3) (X : (⟨S800000x64, .f32⟩ : BufTy).Contents (Elt F)) :
    ((TRef.of (T := ⟨S800000x64, .f32⟩) main_v0 p1 p2 p3).toBuf X : S800000x64.Idx → Elt F .f32) = X := rfl
theorem toBuf_v1 (p1 p2 p3) (X : (⟨S800000x64, .f32⟩ : BufTy).Contents (Elt F)) :
    ((TRef.of (T := ⟨S800000x64, .f32⟩) main_v1 p1 p2 p3).toBuf X : S800000x64.Idx → Elt F .f32) = X := rfl

/-- A node-index vector wrapped once (`idx + 50000` where negative) and laid as the [E, 1] column of start indices. -/
def wrapCol (idx : IVec S800000 32) : IVec S800000x1 32 :=
  broadcastInDim S800000x1 ![0] bcast_S800000_S800000x1_0
    (select (cmpi .slt idx (broadcastInDim S800000 ![] bcast_S_S800000 (constantI S_ 32 0#32)))
      (addi idx (broadcastInDim S800000 ![] bcast_S_S800000 (constantI S_ 32 50000#32))) idx)

set_option maxRecDepth 200000 in
set_option maxHeartbeats 2000000 in
/-- The gathered source rows: the fill-mode take is the bare gather when every source index is in range. -/
theorem V_hsrc (c : Dev nD)
    (hr : ∀ i, -(50000 : Int) ≤ ((m ((c : Thread nD τ).loc main_arg1) : IVec S800000 32) i).toInt
      ∧ ((m ((c : Thread nD τ).loc main_arg1) : IVec S800000 32) i).toInt < 50000) :
    (V m c main_v0 : S800000x64.Idx → Elt F .f32)
      = Host.gather gather_S50000x64_S800000x1_S800000x64_1_0_n_n_0_1_164 (m ((c : Thread nD τ).loc main_arg0)) (wrapCol (m ((c : Thread nD τ).loc main_arg1))) := by
  dsimp only [V]
  simp only [hostOps0, hostOps0_1, hostOps0_2, List.flatten_cons, List.flatten_nil, List.append_nil, List.cons_append, List.nil_append]
  after_results_simp
  simp only [ofBuf_toBuf, ofBuf_arg0, ofBuf_arg1, ofBuf_arg2, toBuf_v0, toBuf_v1]
  exact TakeFill.take_fill_eq_gather (α := Elt F .f32) 50000 49999 (by decide) rfl bcast_S_S800000 bcast_S800000_S800000x1_0 bcast_S_S800000x1
    bcast_S1_S1x1_1 bcast_S1x1_S800000x1_0_1 bcast_S800000_S800000x64_0 reducesTo_S800000x1_S800000_d1 h_S_
    gather_S50000x64_S800000x1_S800000x64_1_0_n_n_0_1_164 (m ((c : Thread nD τ).loc main_arg0))
    (broadcastInDim S800000x64 ![] bcast_S_S800000x64 (constant S_ .f32 0x7FC00000#32))
    (m ((c : Thread nD τ).loc main_arg1)) hr

set_option maxRecDepth 200000 in
set_option maxHeartbeats 2000000 in
/-- The gathered destination rows, likewise. -/
theorem V_hdst (c : Dev nD)
    (hr : ∀ i, -(50000 : Int) ≤ ((m ((c : Thread nD τ).loc main_arg2) : IVec S800000 32) i).toInt
      ∧ ((m ((c : Thread nD τ).loc main_arg2) : IVec S800000 32) i).toInt < 50000) :
    (V m c main_v1 : S800000x64.Idx → Elt F .f32)
      = Host.gather gather_S50000x64_S800000x1_S800000x64_1_0_n_n_0_1_164 (m ((c : Thread nD τ).loc main_arg0)) (wrapCol (m ((c : Thread nD τ).loc main_arg2))) := by
  dsimp only [V]
  simp only [hostOps0, hostOps0_1, hostOps0_2, List.flatten_cons, List.flatten_nil, List.append_nil, List.cons_append, List.nil_append]
  after_results_simp
  simp only [ofBuf_toBuf, ofBuf_arg0, ofBuf_arg1, ofBuf_arg2, toBuf_v0, toBuf_v1]
  exact TakeFill.take_fill_eq_gather (α := Elt F .f32) 50000 49999 (by decide) rfl bcast_S_S800000 bcast_S800000_S800000x1_0 bcast_S_S800000x1
    bcast_S1_S1x1_1 bcast_S1x1_S800000x1_0_1 bcast_S800000_S800000x64_0 reducesTo_S800000x1_S800000_d1 h_S_
    gather_S50000x64_S800000x1_S800000x64_1_0_n_n_0_1_164 (m ((c : Thread nD τ).loc main_arg0))
    (broadcastInDim S800000x64 ![] bcast_S_S800000x64 (constant S_ .f32 0x7FC00000#32))
    (m ((c : Thread nD τ).loc main_arg2)) hr

/-- An [a] array cast to the column [a, 1] reads, at (i, u), the operand at i. -/
theorem shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The edge norms as the region finds them: a column of the argument. -/
theorem V_en_apply (c : Dev nD) (e : Fin 800000) (u : Fin 1) :
    (V m c main_v2 : S800000x1.Idx → Elt F .f32) (ix2 e u) = (m ((c : Thread nD τ).loc main_arg3) : S800000.Idx → Elt F .f32) (ix1 e) := by
  have hV : (V m c main_v2 : S800000x1.Idx → Elt F .f32) = shapeCast S800000x1 (m ((c : Thread nD τ).loc main_arg3) : S800000.Idx → Elt F .f32) shapeCasts_S800000_S800000x1 := by
    dsimp only [V]
    simp only [hostOps0, hostOps0_1, hostOps0_2, List.flatten_cons, List.flatten_nil, List.append_nil, List.cons_append, List.nil_append]
    after_results_simp
    rfl
  rw [hV]
  exact shapeCast_col_apply _ _ e u

/-- The centres as the region finds them: a row of the argument. -/
theorem V_mu_apply (c : Dev nD) (u : Fin 1) (r : Fin 100) :
    (V m c main_v3 : S1x100.Idx → Elt F .f32) (ix2 u r) = (m ((c : Thread nD τ).loc main_arg4) : S100.Idx → Elt F .f32) (ix1 r) := by
  have hV : (V m c main_v3 : S1x100.Idx → Elt F .f32) = shapeCast S1x100 (m ((c : Thread nD τ).loc main_arg4) : S100.Idx → Elt F .f32) shapeCasts_S100_S1x100 := by
    dsimp only [V]
    simp only [hostOps0, hostOps0_1, hostOps0_2, List.flatten_cons, List.flatten_nil, List.append_nil, List.cons_append, List.nil_append]
    after_results_simp
    rfl
  rw [hV]
  exact shapeCast_a_1a_apply _ _ u r

/-- Rows [0, 64) of `W1` transposed: entry (k, j) is `W1[j, k]`. -/
theorem V_w1s_apply (c : Dev nD) (k : Fin 64) (j : Fin 128) :
    (V m c main_v5 : S64x128.Idx → Elt F .f32) (ix2 k j) = (m ((c : Thread nD τ).loc main_arg5) : S128x228.Idx → Elt F .f32) (ix2 j (colS k)) := by
  have hV : (V m c main_v5 : S64x128.Idx → Elt F .f32) = transpose S64x128 [1, 0] (extractStridedSlice S128x64 ![0, 0] (m ((c : Thread nD τ).loc main_arg5) : S128x228.Idx → Elt F .f32) slices_S128x228_S128x64_0_0) transposes_S128x64_S64x128_1_0 := by
    dsimp only [V]
    simp only [hostOps0, hostOps0_1, hostOps0_2, List.flatten_cons, List.flatten_nil, List.append_nil, List.cons_append, List.nil_append]
    after_results_simp
  rw [hV, transpose_apply [1, 0] _ transposes_S128x64_S64x128_1_0 (ix2 k j) (ix2 j k) (fun b => match b with
    | ⟨0, _⟩ => rfl
    | ⟨1, _⟩ => rfl)]
  exact extractStridedSlice_apply _ _ slices_S128x228_S128x64_0_0 (ix2 j k) (ix2 j (colS k)) (fun a => match a with
    | ⟨0, _⟩ => (Nat.zero_add _).symm
    | ⟨1, _⟩ => (Nat.zero_add _).symm)

/-- Rows [64, 128) of `W1` transposed: entry (k, j) is `W1[j, 64 + k]`. -/
theorem V_w1d_apply (c : Dev nD) (k : Fin 64) (j : Fin 128) :
    (V m c main_v7 : S64x128.Idx → Elt F .f32) (ix2 k j) = (m ((c : Thread nD τ).loc main_arg5) : S128x228.Idx → Elt F .f32) (ix2 j (colD k)) := by
  have hV : (V m c main_v7 : S64x128.Idx → Elt F .f32) = transpose S64x128 [1, 0] (extractStridedSlice S128x64 ![0, 64] (m ((c : Thread nD τ).loc main_arg5) : S128x228.Idx → Elt F .f32) slices_S128x228_S128x64_0_64) transposes_S128x64_S64x128_1_0 := by
    dsimp only [V]
    simp only [hostOps0, hostOps0_1, hostOps0_2, List.flatten_cons, List.flatten_nil, List.append_nil, List.cons_append, List.nil_append]
    after_results_simp
  rw [hV, transpose_apply [1, 0] _ transposes_S128x64_S64x128_1_0 (ix2 k j) (ix2 j k) (fun b => match b with
    | ⟨0, _⟩ => rfl
    | ⟨1, _⟩ => rfl)]
  exact extractStridedSlice_apply _ _ slices_S128x228_S128x64_0_64 (ix2 j k) (ix2 j (colD k)) (fun a => match a with
    | ⟨0, _⟩ => (Nat.zero_add _).symm
    | ⟨1, _⟩ => rfl)

/-- Rows [128, 228) of `W1` transposed: entry (r, j) is `W1[j, 128 + r]`. -/
theorem V_w1r_apply (c : Dev nD) (r : Fin 100) (j : Fin 128) :
    (V m c main_v9 : S100x128.Idx → Elt F .f32) (ix2 r j) = (m ((c : Thread nD τ).loc main_arg5) : S128x228.Idx → Elt F .f32) (ix2 j (colR r)) := by
  have hV : (V m c main_v9 : S100x128.Idx → Elt F .f32) = transpose S100x128 [1, 0] (extractStridedSlice S128x100 ![0, 128] (m ((c : Thread nD τ).loc main_arg5) : S128x228.Idx → Elt F .f32) slices_S128x228_S128x100_0_128) transposes_S128x100_S100x128_1_0 := by
    dsimp only [V]
    simp only [hostOps0, hostOps0_1, hostOps0_2, List.flatten_cons, List.flatten_nil, List.append_nil, List.cons_append, List.nil_append]
    after_results_simp
  rw [hV, transpose_apply [1, 0] _ transposes_S128x100_S100x128_1_0 (ix2 r j) (ix2 j r) (fun b => match b with
    | ⟨0, _⟩ => rfl
    | ⟨1, _⟩ => rfl)]
  exact extractStridedSlice_apply _ _ slices_S128x228_S128x100_0_128 (ix2 j r) (ix2 j (colR r)) (fun a => match a with
    | ⟨0, _⟩ => (Nat.zero_add _).symm
    | ⟨1, _⟩ => rfl)

/-- `W2` transposed: entry (j, o) is `W2[o, j]`. -/
theorem V_w2t_apply (c : Dev nD) (j : Fin 128) (o : Fin 64) :
    (V m c main_v10 : S128x64.Idx → Elt F .f32) (ix2 j o) = (m ((c : Thread nD τ).loc main_arg6) : S64x128.Idx → Elt F .f32) (ix2 o j) := by
  have hV : (V m c main_v10 : S128x64.Idx → Elt F .f32) = transpose S128x64 [1, 0] (m ((c : Thread nD τ).loc main_arg6) : S64x128.Idx → Elt F .f32) transposes_S64x128_S128x64_1_0 := by
    dsimp only [V]
    simp only [hostOps0, hostOps0_1, hostOps0_2, List.flatten_cons, List.flatten_nil, List.append_nil, List.cons_append, List.nil_append]
    after_results_simp
  rw [hV]
  exact transpose_apply [1, 0] _ transposes_S64x128_S128x64_1_0 (ix2 j o) (ix2 o j) (fun b => match b with
    | ⟨0, _⟩ => rfl
    | ⟨1, _⟩ => rfl)

end Cert.KernelIdeal.Arrays

end
-- ==== Proof.KernelBlocks.lean ====
/-
  Grid point `t` of the 200 handles the 4000 edges [4000·t, 4000·t + 4000). The blocks it loads are the arrays the region
  reads, read where the result's block says: the gathered source and destination rows and the edge norms' column move with
  the result's block along the rows; the centres' row and the four weight pieces are loaded whole at every point.
  A window's block at a point reads its array at the block's place: entry y of the block is the array's entry at
  (block index × block extent + y) on each axis.
-/
import proofs.«410212_j14929306321382_1_alg».proof.Proof.Gen.KernelIdeal.Value
import proofs.«410212_j14929306321382_1_alg».proof.Proof.KernelPayload
import proofs.«410212_j14929306321382_1_alg».proof.Proof.KernelArrays

set_option maxRecDepth 16384

noncomputable section

namespace Cert.KernelIdeal.KValue

open Cert.KernelIdeal Cert.KernelIdeal.Gen Cert.KernelIdeal.Payload Cert.KernelIdeal.Arrays Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region reads (one per input window) and the blocks a point loads, at their literal types -/

def aHS (c : Dev nD) : FVec Ideal S800000x64 .f32 := V m c (Pipeline.arrRef spec0 0)
def aHD (c : Dev nD) : FVec Ideal S800000x64 .f32 := V m c (Pipeline.arrRef spec0 1)
def aEN (c : Dev nD) : FVec Ideal S800000x1 .f32 := V m c (Pipeline.arrRef spec0 2)
def aMU (c : Dev nD) : FVec Ideal S1x100 .f32 := V m c (Pipeline.arrRef spec0 3)
def aW1S (c : Dev nD) : FVec Ideal S64x128 .f32 := V m c (Pipeline.arrRef spec0 4)
def aW1D (c : Dev nD) : FVec Ideal S64x128 .f32 := V m c (Pipeline.arrRef spec0 5)
def aW1R (c : Dev nD) : FVec Ideal S100x128 .f32 := V m c (Pipeline.arrRef spec0 6)
def aW2T (c : Dev nD) : FVec Ideal S128x64 .f32 := V m c (Pipeline.arrRef spec0 7)

abbrev bHS (c : Dev nD) (t : Fin cfg0.N) : FVec Ideal S4000x64 .f32 := iblk m c 0 t
abbrev bHD (c : Dev nD) (t : Fin cfg0.N) : FVec Ideal S4000x64 .f32 := iblk m c 1 t
abbrev bEN (c : Dev nD) (t : Fin cfg0.N) : FVec Ideal S4000x1 .f32 := iblk m c 2 t
abbrev bMU (c : Dev nD) (t : Fin cfg0.N) : FVec Ideal S1x100 .f32 := iblk m c 3 t
abbrev bW1S (c : Dev nD) (t : Fin cfg0.N) : FVec Ideal S64x128 .f32 := iblk m c 4 t
abbrev bW1D (c : Dev nD) (t : Fin cfg0.N) : FVec Ideal S64x128 .f32 := iblk m c 5 t
abbrev bW1R (c : Dev nD) (t : Fin cfg0.N) : FVec Ideal S100x128 .f32 := iblk m c 6 t
abbrev bW2T (c : Dev nD) (t : Fin cfg0.N) : FVec Ideal S128x64 .f32 := iblk m c 7 t

/-- The pre-activation of edge `e`, unit `j`, over the arrays the region reads. -/
def zarr (hs hd : FVec Ideal S800000x64 .f32) (en : FVec Ideal S800000x1 .f32) (mu : FVec Ideal S1x100 .f32)
    (w1s w1d : FVec Ideal S64x128 .f32) (w1r : FVec Ideal S100x128 .f32) (e : Fin 800000) (j : Fin 128) : EReal :=
  (∑ k : Fin 64, hs (ix2 e k) * w1s (ix2 k j) + ∑ k : Fin 64, hd (ix2 e k) * w1d (ix2 k j))
    + ∑ r : Fin 100, rbf (mu (ix2 (0 : Fin 1) r)) (en (ix2 e (0 : Fin 1))) * w1r (ix2 r j)

/-- The whole result over the arrays the region reads. -/
def GK (hs hd : FVec Ideal S800000x64 .f32) (en : FVec Ideal S800000x1 .f32) (mu : FVec Ideal S1x100 .f32)
    (w1s w1d : FVec Ideal S64x128 .f32) (w1r : FVec Ideal S100x128 .f32) (w2t : FVec Ideal S128x64 .f32) : FVec Ideal S800000x64 .f32 :=
  fun i => ∑ j : Fin 128, silu (zarr hs hd en mu w1s w1d w1r (i 0) j) * w2t (ix2 j (i 1))

theorem hz : (![0, 0] : Fin 2 → Nat) = fun _ => 0 := funext fun a => by fin_cases a <;> rfl

/-- The printed index maps, decided over the grid: the three edge-indexed windows move with the result's block along the
    rows, everything else stays at block 0, and the result's block index along the rows is the point's number. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = win0_8.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = t.val ∧ win0_8.index t (1 : Fin 2) = 0 :=
  (by decide +kernel : ∀ t : Fin grid0.N, _)

/-! ## Where a block's entry sits in its array -/

section Blocks
variable (c : Dev nD) (t : Fin cfg0.N) (p : Fin 4000) (q : Fin 64)

/-- Where entry (p, q) of point `t`'s result block sits in the result array. -/
abbrev at8 : S800000x64.Idx := ((cfg0.win 8).blk t).view.emb (ix2 p q)

theorem emb_w0 (k : Fin 64) : ((cfg0.win 0).blk t).view.emb (ix2 p k) = ix2 ((at8 t p q) 0) k := by
  obtain ⟨e0, e1, -⟩ := idx_facts t
  funext a
  apply Fin.ext
  match a with
  | ⟨0, _⟩ => show win0_0.index t (0 : Fin 2) * 4000 + 1 * p.val = win0_8.index t (0 : Fin 2) * 4000 + 1 * p.val; omega
  | ⟨1, _⟩ => show win0_0.index t (1 : Fin 2) * 64 + 1 * k.val = k.val; omega

theorem emb_w1 (k : Fin 64) : ((cfg0.win 1).blk t).view.emb (ix2 p k) = ix2 ((at8 t p q) 0) k := by
  obtain ⟨-, -, e0, e1, -⟩ := idx_facts t
  funext a
  apply Fin.ext
  match a with
  | ⟨0, _⟩ => show win0_1.index t (0 : Fin 2) * 4000 + 1 * p.val = win0_8.index t (0 : Fin 2) * 4000 + 1 * p.val; omega
  | ⟨1, _⟩ => show win0_1.index t (1 : Fin 2) * 64 + 1 * k.val = k.val; omega

theorem emb_w2 : ((cfg0.win 2).blk t).view.emb (ix2 p (0 : Fin 1)) = ix2 ((at8 t p q) 0) (0 : Fin 1) := by
  obtain ⟨-, -, -, -, e0, e1, -⟩ := idx_facts t
  funext a
  apply Fin.ext
  match a with
  | ⟨0, _⟩ => show win0_2.index t (0 : Fin 2) * 4000 + 1 * p.val = win0_8.index t (0 : Fin 2) * 4000 + 1 * p.val; omega
  | ⟨1, _⟩ => show win0_2.index t (1 : Fin 2) * 1 + 1 * 0 = 0; omega

theorem emb_w3 (r : Fin 100) : ((cfg0.win 3).blk t).view.emb (ix2 (0 : Fin 1) r) = ix2 (0 : Fin 1) r := by
  obtain ⟨-, -, -, -, -, -, e0, e1, -⟩ := idx_facts t
  funext a
  apply Fin.ext
  match a with
  | ⟨0, _⟩ => show win0_3.index t (0 : Fin 2) * 1 + 1 * 0 = 0; omega
  | ⟨1, _⟩ => show win0_3.index t (1 : Fin 2) * 100 + 1 * r.val = r.val; omega

theorem emb_w4 (k : Fin 64) (j : Fin 128) : ((cfg0.win 4).blk t).view.emb (ix2 k j) = ix2 k j := by
  obtain ⟨-, -, -, -, -, -, -, -, e0, e1, -⟩ := idx_facts t
  funext a
  apply Fin.ext
  match a with
  | ⟨0, _⟩ => show win0_4.index t (0 : Fin 2) * 64 + 1 * k.val = k.val; omega
  | ⟨1, _⟩ => show win0_4.index t (1 : Fin 2) * 128 + 1 * j.val = j.val; omega

theorem emb_w5 (k : Fin 64) (j : Fin 128) : ((cfg0.win 5).blk t).view.emb (ix2 k j) = ix2 k j := by
  obtain ⟨-, -, -, -, -, -, -, -, -, -, e0, e1, -⟩ := idx_facts t
  funext a
  apply Fin.ext
  match a with
  | ⟨0, _⟩ => show win0_5.index t (0 : Fin 2) * 64 + 1 * k.val = k.val; omega
  | ⟨1, _⟩ => show win0_5.index t (1 : Fin 2) * 128 + 1 * j.val = j.val; omega

theorem emb_w6 (r : Fin 100) (j : Fin 128) : ((cfg0.win 6).blk t).view.emb (ix2 r j) = ix2 r j := by
  obtain ⟨-, -, -, -, -, -, -, -, -, -, -, -, e0, e1, -⟩ := idx_facts t
  funext a
  apply Fin.ext
  match a with
  | ⟨0, _⟩ => show win0_6.index t (0 : Fin 2) * 100 + 1 * r.val = r.val; omega
  | ⟨1, _⟩ => show win0_6.index t (1 : Fin 2) * 128 + 1 * j.val = j.val; omega

theorem emb_w7 (j : Fin 128) : ((cfg0.win 7).blk t).view.emb (ix2 j q) = ix2 j ((at8 t p q) 1) := by
  obtain ⟨-, -, -, -, -, -, -, -, -, -, -, -, -, -, e0, e1, -, e3⟩ := idx_facts t
  funext a
  apply Fin.ext
  match a with
  | ⟨0, _⟩ => show win0_7.index t (0 : Fin 2) * 128 + 1 * j.val = j.val; omega
  | ⟨1, _⟩ => show win0_7.index t (1 : Fin 2) * 64 + 1 * q.val = win0_8.index t (1 : Fin 2) * 64 + 1 * q.val; omega

/-! ## A block reads its array at the block's place (for any contents of the array) -/

theorem read0 (A : FVec Ideal S800000x64 .f32) (y : S4000x64.Idx) :
    ((cfg0.win 0).blk t).view.read (Elt Ideal) A y = A (((cfg0.win 0).blk t).view.emb y) := rfl
theorem read1 (A : FVec Ideal S800000x64 .f32) (y : S4000x64.Idx) :
    ((cfg0.win 1).blk t).view.read (Elt Ideal) A y = A (((cfg0.win 1).blk t).view.emb y) := rfl
theorem read2 (A : FVec Ideal S800000x1 .f32) (y : S4000x1.Idx) :
    ((cfg0.win 2).blk t).view.read (Elt Ideal) A y = A (((cfg0.win 2).blk t).view.emb y) := rfl
theorem read3 (A : FVec Ideal S1x100 .f32) (y : S1x100.Idx) :
    ((cfg0.win 3).blk t).view.read (Elt Ideal) A y = A (((cfg0.win 3).blk t).view.emb y) := rfl
theorem read4 (A : FVec Ideal S64x128 .f32) (y : S64x128.Idx) :
    ((cfg0.win 4).blk t).view.read (Elt Ideal) A y = A (((cfg0.win 4).blk t).view.emb y) := rfl
theorem read5 (A : FVec Ideal S64x128 .f32) (y : S64x128.Idx) :
    ((cfg0.win 5).blk t).view.read (Elt Ideal) A y = A (((cfg0.win 5).blk t).view.emb y) := rfl
theorem read6 (A : FVec Ideal S100x128 .f32) (y : S100x128.Idx) :
    ((cfg0.win 6).blk t).view.read (Elt Ideal) A y = A (((cfg0.win 6).blk t).view.emb y) := rfl
theorem read7 (A : FVec Ideal S128x64 .f32) (y : S128x64.Idx) :
    ((cfg0.win 7).blk t).view.read (Elt Ideal) A y = A (((cfg0.win 7).blk t).view.emb y) := rfl

/-! ## Each loaded block is its array read where the result's block says -/

theorem blk_hs (k : Fin 64) : bHS m c t (ix2 p k) = aHS m c (ix2 ((at8 t p q) 0) k) := by
  have h : bHS m c t (ix2 p k) = aHS m c (((cfg0.win 0).blk t).view.emb (ix2 p k)) := read0 t (aHS m c) (ix2 p k)
  rw [h, emb_w0 t p q k]
  rfl

theorem blk_hd (k : Fin 64) : bHD m c t (ix2 p k) = aHD m c (ix2 ((at8 t p q) 0) k) := by
  have h : bHD m c t (ix2 p k) = aHD m c (((cfg0.win 1).blk t).view.emb (ix2 p k)) := read1 t (aHD m c) (ix2 p k)
  rw [h, emb_w1 t p q k]
  rfl

theorem blk_en : bEN m c t (ix2 p (0 : Fin 1)) = aEN m c (ix2 ((at8 t p q) 0) (0 : Fin 1)) := by
  have h : bEN m c t (ix2 p (0 : Fin 1)) = aEN m c (((cfg0.win 2).blk t).view.emb (ix2 p (0 : Fin 1))) := read2 t (aEN m c) (ix2 p (0 : Fin 1))
  rw [h, emb_w2 t p q]
  rfl

theorem blk_mu (r : Fin 100) : bMU m c t (ix2 (0 : Fin 1) r) = aMU m c (ix2 (0 : Fin 1) r) := by
  have h : bMU m c t (ix2 (0 : Fin 1) r) = aMU m c (((cfg0.win 3).blk t).view.emb (ix2 (0 : Fin 1) r)) := read3 t (aMU m c) (ix2 (0 : Fin 1) r)
  rw [h, emb_w3 t r]

theorem blk_w1s (k : Fin 64) (j : Fin 128) : bW1S m c t (ix2 k j) = aW1S m c (ix2 k j) := by
  have h : bW1S m c t (ix2 k j) = aW1S m c (((cfg0.win 4).blk t).view.emb (ix2 k j)) := read4 t (aW1S m c) (ix2 k j)
  rw [h, emb_w4 t k j]

theorem blk_w1d (k : Fin 64) (j : Fin 128) : bW1D m c t (ix2 k j) = aW1D m c (ix2 k j) := by
  have h : bW1D m c t (ix2 k j) = aW1D m c (((cfg0.win 5).blk t).view.emb (ix2 k j)) := read5 t (aW1D m c) (ix2 k j)
  rw [h, emb_w5 t k j]

theorem blk_w1r (r : Fin 100) (j : Fin 128) : bW1R m c t (ix2 r j) = aW1R m c (ix2 r j) := by
  have h : bW1R m c t (ix2 r j) = aW1R m c (((cfg0.win 6).blk t).view.emb (ix2 r j)) := read6 t (aW1R m c) (ix2 r j)
  rw [h, emb_w6 t r j]

theorem blk_w2t (j : Fin 128) : bW2T m c t (ix2 j q) = aW2T m c (ix2 j ((at8 t p q) 1)) := by
  have h : bW2T m c t (ix2 j q) = aW2T m c (((cfg0.win 7).blk t).view.emb (ix2 j q)) := read7 t (aW2T m c) (ix2 j q)
  rw [h, emb_w7 t p q j]
  rfl

end Blocks

end Cert.KernelIdeal.KValue

end
-- ==== Proof.KernelFlush.lean ====
/-
  What grid point `t` writes back is block `t` of ONE whole-array function of the arrays the region reads: the body's
  stored block, entry by entry, is the result function at the entry's place in the array, because each loaded block is its
  array read at that place. The result window is never cut at the array's end (4000 divides 800000), so what is written
  back is the whole stored block.
-/
import proofs.«410212_j14929306321382_1_alg».proof.Proof.Gen.KernelIdeal.Value
import proofs.«410212_j14929306321382_1_alg».proof.Proof.KernelBlocks

set_option maxRecDepth 16384

noncomputable section

namespace Cert.KernelIdeal.KValue

open Cert.KernelIdeal Cert.KernelIdeal.Gen Cert.KernelIdeal.Payload Cert.KernelIdeal.Arrays Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The result window's block is whole at every point: nothing is cut off what the body stored. -/
theorem cut8 (t : Fin cfg0.N) (X : FVec Ideal S4000x64 .f32) : (cfg0.win 8).cut (grid0.coords t) X = X := rfl

/-- The result window's block reads an array at the block's place (for any contents of the array). -/
theorem read8 (t : Fin cfg0.N) (A : FVec Ideal S800000x64 .f32) :
    ((cfg0.win 8).blk t).view.read (Elt Ideal) A = fun y : S4000x64.Idx => A (((cfg0.win 8).blk t).view.emb y) := rfl

/-- The body's stored block at entry y is the result function at y's place in the result array. -/
theorem body_eq (c : Dev nD) (t : Fin cfg0.N) (y : S4000x64.Idx) :
    k0_pay1 (F := Ideal) (k0_pay2 (bMU m c t) (bEN m c t) (bHS m c t) (bHD m c t) (bW1S m c t) (bW1D m c t) (bW1R m c t))
      (k0_pay3 (bMU m c t) (bEN m c t) (bHS m c t) (bHD m c t) (bW1S m c t) (bW1D m c t) (bW1R m c t)) (k0_pay4 (F := Ideal)) (bW2T m c t) y
    = GK (aHS m c) (aHD m c) (aEN m c) (aMU m c) (aW1S m c) (aW1D m c) (aW1R m c) (aW2T m c) (((cfg0.win 8).blk t).view.emb y) := by
  obtain ⟨p, q, rfl⟩ : ∃ (p : Fin 4000) (q : Fin 64), y = ix2 p q := ⟨y 0, y 1, eq_ix2 y⟩
  refine (out_apply (bMU m c t) (bEN m c t) (bHS m c t) (bHD m c t) (bW1S m c t) (bW1D m c t) (bW1R m c t) (bW2T m c t) p q).trans ?_
  unfold GK zblk zarr
  refine Finset.sum_congr rfl fun j _ => ?_
  rw [blk_w2t m c t p q j, blk_en m c t p q]
  simp only [blk_hs m c t p q, blk_hd m c t p q, blk_mu m c t, blk_w1s m c t, blk_w1d m c t, blk_w1r m c t]

/-- WHAT POINT `t` WRITES BACK is block `t` of `GK` of the arrays the region reads. -/
theorem flushed_eq (c : Dev nD) (t : Fin cfg0.N) :
    (dats m 0 c).flushed 8 t = ((cfg0.win 8).blk t).view.read (Elt Ideal)
      (GK (aHS m c) (aHD m c) (aEN m c) (aMU m c) (aW1S m c) (aW1D m c) (aW1R m c) (aW2T m c)) := by
  rw [Cert.KernelIdeal.Value.flushed8]
  unfold out0_8
  rw [View.canon_unit_zero hz]
  simp only [View.ld_unit_zero (S := S4000x64) hz, View.ld_unit_zero (S := S4000x1) hz, View.ld_unit_zero (S := S1x100) hz,
    View.ld_unit_zero (S := S64x128) hz, View.ld_unit_zero (S := S100x128) hz, View.ld_unit_zero (S := S128x64) hz]
  refine (cut8 t _).trans ?_
  refine Eq.trans ?_ (read8 t _).symm
  funext y
  exact body_eq m c t y

end Cert.KernelIdeal.KValue

end
-- ==== Proof.KernelValue.lean ====
/-
  The kernel's result array after the run is the common function `G`.

  What each grid point writes back is its block of ONE whole-array function of the arrays the region reads; the 200 blocks
  of 4000 rows tile the result (row r lies in the block of point r / 4000), hence after the run the result array is that
  function; and the arrays the region reads are the gathered rows and the re-laid arguments, which turns it into `G`.
-/
import proofs.«410212_j14929306321382_1_alg».proof.Proof.Gen.KernelIdeal.Value
import proofs.«410212_j14929306321382_1_alg».proof.Proof.KernelFlush

set_option maxRecDepth 16384

noncomputable section

namespace Cert.KernelIdeal.KValue

open Cert.KernelIdeal Cert.KernelIdeal.Gen Cert.KernelIdeal.Payload Cert.KernelIdeal.Arrays Cert.EdgeMlp
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The cover, and the array after the run -/

/-- An index of the result array is in point `t`'s block iff each coordinate is in the block's range on its axis. -/
theorem mem_blk (t : Fin cfg0.N) (i : S800000x64.Idx) :
    i ∈ ((cfg0.win 8).blk t).view.set ↔ ∀ a : Fin 2, win0_8.index t a * S4000x64.size a ≤ (i a).val ∧ (i a).val < win0_8.index t a * S4000x64.size a + S4000x64.size a := by
  show i ∈ ((View.whole main_v11).slice (win0_8.rect t)).set ↔ _
  rw [View.set_slice_whole, Rect.mem_set_unit]
  exact Iff.rfl

/-- The 200 blocks tile the result: row r lies in the block of point r / 4000. -/
theorem cover (i : S800000x64.Idx) : ∃ t : Fin cfg0.N, (cfg0.win 8).flush t = true ∧ i ∈ ((cfg0.win 8).blk t).view.set := by
  have hi0 : (i 0).val < 800000 := (i 0).isLt
  have hi1 : (i 1).val < 64 := (i 1).isLt
  have hlt : (i 0).val / 4000 < 200 := by omega
  refine ⟨⟨(i 0).val / 4000, hlt⟩, flush0_8 _, ?_⟩
  rw [mem_blk]
  obtain ⟨-, -, -, -, -, -, -, -, -, -, -, -, -, -, -, -, e0, e1⟩ := idx_facts ⟨(i 0).val / 4000, hlt⟩
  have e0' : win0_8.index ⟨(i 0).val / 4000, hlt⟩ (0 : Fin 2) = (i 0).val / 4000 := e0
  intro a
  match a with
  | ⟨0, _⟩ =>
    show win0_8.index ⟨(i 0).val / 4000, hlt⟩ (0 : Fin 2) * 4000 ≤ (i 0).val ∧ (i 0).val < win0_8.index ⟨(i 0).val / 4000, hlt⟩ (0 : Fin 2) * 4000 + 4000
    rw [e0']
    omega
  | ⟨1, _⟩ =>
    show win0_8.index ⟨(i 0).val / 4000, hlt⟩ (1 : Fin 2) * 64 ≤ (i 1).val ∧ (i 1).val < win0_8.index ⟨(i 0).val / 4000, hlt⟩ (1 : Fin 2) * 64 + 64
    rw [e1]
    omega

/-- THE ARRAY after the run is `GK` of the arrays the region reads. -/
theorem final_arrays (c : Dev nD) :
    (dats m 0 c).arrAt 8 cfg0.N = GK (aHS m c) (aHD m c) (aEN m c) (aMU m c) (aW1S m c) (aW1D m c) (aW1R m c) (aW2T m c) :=
  (dats m 0 c).arrAt_eq_of_cover 8 _ (fun t _ => flushed_eq m c t) cover

/-! ## The arrays the region reads, in terms of the arguments -/

/-- The gathered rows at the wrapped source / destination index. -/
abbrev gS (c : Dev nD) : FVec Ideal S800000x64 .f32 :=
  Host.gather gather_S50000x64_S800000x1_S800000x64_1_0_n_n_0_1_164 (m ((c : Thread nD τ).loc main_arg0)) (wrapCol (m ((c : Thread nD τ).loc main_arg1)))
abbrev gD (c : Dev nD) : FVec Ideal S800000x64 .f32 :=
  Host.gather gather_S50000x64_S800000x1_S800000x64_1_0_n_n_0_1_164 (m ((c : Thread nD τ).loc main_arg0)) (wrapCol (m ((c : Thread nD τ).loc main_arg2)))

theorem aHS_eq (c : Dev nD)
    (h1 : ∀ i, -(50000 : Int) ≤ ((m ((c : Thread nD τ).loc main_arg1) : IVec S800000 32) i).toInt
      ∧ ((m ((c : Thread nD τ).loc main_arg1) : IVec S800000 32) i).toInt < 50000) : aHS m c = gS m c := by
  unfold aHS
  exact V_hsrc m c h1

theorem aHD_eq (c : Dev nD)
    (h2 : ∀ i, -(50000 : Int) ≤ ((m ((c : Thread nD τ).loc main_arg2) : IVec S800000 32) i).toInt
      ∧ ((m ((c : Thread nD τ).loc main_arg2) : IVec S800000 32) i).toInt < 50000) : aHD m c = gD m c := by
  unfold aHD
  exact V_hdst m c h2

theorem aEN_apply (c : Dev nD) (e : Fin 800000) (u : Fin 1) :
    aEN m c (ix2 e u) = (m ((c : Thread nD τ).loc main_arg3) : S800000.Idx → Elt Ideal .f32) (ix1 e) := by
  unfold aEN
  exact V_en_apply m c e u

theorem aMU_apply (c : Dev nD) (u : Fin 1) (r : Fin 100) :
    aMU m c (ix2 u r) = (m ((c : Thread nD τ).loc main_arg4) : S100.Idx → Elt Ideal .f32) (ix1 r) := by
  unfold aMU
  exact V_mu_apply m c u r

theorem aW1S_apply (c : Dev nD) (k : Fin 64) (j : Fin 128) :
    aW1S m c (ix2 k j) = (m ((c : Thread nD τ).loc main_arg5) : S128x228.Idx → Elt Ideal .f32) (ix2 j (colS k)) := by
  unfold aW1S
  exact V_w1s_apply m c k j

theorem aW1D_apply (c : Dev nD) (k : Fin 64) (j : Fin 128) :
    aW1D m c (ix2 k j) = (m ((c : Thread nD τ).loc main_arg5) : S128x228.Idx → Elt Ideal .f32) (ix2 j (colD k)) := by
  unfold aW1D
  exact V_w1d_apply m c k j

theorem aW1R_apply (c : Dev nD) (r : Fin 100) (j : Fin 128) :
    aW1R m c (ix2 r j) = (m ((c : Thread nD τ).loc main_arg5) : S128x228.Idx → Elt Ideal .f32) (ix2 j (colR r)) := by
  unfold aW1R
  exact V_w1r_apply m c r j

theorem aW2T_apply (c : Dev nD) (j : Fin 128) (o : Fin 64) :
    aW2T m c (ix2 j o) = (m ((c : Thread nD τ).loc main_arg6) : S64x128.Idx → Elt Ideal .f32) (ix2 o j) := by
  unfold aW2T
  exact V_w2t_apply m c j o

/-- With both index inputs in [-50000, 50000): the result array is `G` of the gathered rows and the arguments. -/
theorem final (c : Dev nD)
    (h1 : ∀ i, -(50000 : Int) ≤ ((m ((c : Thread nD τ).loc main_arg1) : IVec S800000 32) i).toInt
      ∧ ((m ((c : Thread nD τ).loc main_arg1) : IVec S800000 32) i).toInt < 50000)
    (h2 : ∀ i, -(50000 : Int) ≤ ((m ((c : Thread nD τ).loc main_arg2) : IVec S800000 32) i).toInt
      ∧ ((m ((c : Thread nD τ).loc main_arg2) : IVec S800000 32) i).toInt < 50000) :
    (dats m 0 c).arrAt 8 cfg0.N = G (gS m c) (gD m c) (m ((c : Thread nD τ).loc main_arg3)) (m ((c : Thread nD τ).loc main_arg4))
      (m ((c : Thread nD τ).loc main_arg5)) (m ((c : Thread nD τ).loc main_arg6)) := by
  rw [final_arrays, aHS_eq m c h1, aHD_eq m c h2]
  funext i
  obtain ⟨e, o, rfl⟩ : ∃ (e : Fin 800000) (o : Fin 64), i = ix2 e o := ⟨i 0, i 1, eq_ix2 i⟩
  unfold GK G zarr pre
  refine Finset.sum_congr rfl fun j _ => ?_
  simp only [aW1S_apply m c, aW1D_apply m c, aW1R_apply m c, aW2T_apply m c, aMU_apply m c, aEN_apply m c]

end Cert.KernelIdeal.KValue

end
-- ==== Proof.RefValue.lean ====
/-
  The reference's result, read one operation at a time, is the common function `G` of the two gathered row arrays and
  the other arguments. Its pre-activation is one product of the concatenated row [h_src | h_dst | rbf] with `W1`
  transposed: the sum over the 228 columns splits into the three column ranges, and on each range the concatenation reads
  its own piece — columns [0, 64) the source rows, [64, 128) the destination rows, [128, 228) the radial basis values
  exp(-10 · (μ_r - d_e)²). The activation z · (1 / (1 + e^{-z})) and the product with `W2` transposed are read directly.
-/
import proofs.«410212_j14929306321382_1_alg».proof.Proof.Gen.ReferenceIdeal.Read
import proofs.«410212_j14929306321382_1_alg».proof.Proof.Spec
import Idealize.ShloMosaic.Lib.Pipeline.Value

noncomputable section

namespace Cert.ReferenceIdeal.RefValue

open Cert.ReferenceIdeal Cert.ReferenceIdeal.Gen Cert.ReferenceIdeal.Read Cert.EdgeMlp
open Idealize.ShloMosaic Idealize.ShloMosaic.ValueIdx

variable (x0 : FVec Ideal S50000x64 .f32) (x1 x2 : IVec S800000 32) (x3 : FVec Ideal S800000 .f32) (x4 : FVec Ideal S100 .f32)
  (x5 : FVec Ideal S128x228 .f32) (x6 : FVec Ideal S64x128 .f32)

/-- The radial basis stage at (e, r): the centres laid along the rows, the edge norms along the columns. -/
theorem rbf_apply (e : Fin 800000) (r : Fin 100) :
    val_main_v8 (F := Ideal) x3 x4 (ix2 e r) = rbf (x4 (ix1 r)) (x3 (ix1 e)) := by
  rw [val_main_v8_apply, val_main_v7_apply, val_main_v6_apply, val_main_cst_apply, val_main_v5_apply, val_main_v4_apply,
    val_main_v2_apply, val_main_v0_apply, val_main_v3_apply, val_main_v1_apply]
  have e1 : idx_main_v0 (idx_main_v2 (ix2 e r)) = ix1 r := funext fun a => match a with | ⟨0, _⟩ => rfl
  have e2 : idx_main_v1 (idx_main_v3 (ix2 e r)) = ix1 e := funext fun a => match a with | ⟨0, _⟩ => rfl
  rw [e1, e2]
  rfl

/-- Columns [0, 64) of the concatenated row are the gathered source row. -/
theorem concat_S (e : Fin 800000) (k : Fin 64) :
    val_main_v23 (F := Ideal) x0 x1 x2 x3 x4 (ix2 e (colS k)) = val_main_v15 (F := Ideal) x0 x1 (ix2 e k) := by
  unfold val_main_v23
  exact concatenate_apply_piece (1 : Fin S800000x228.rank)
    [⟨S800000x64, val_main_v15 (F := Ideal) x0 x1⟩, ⟨S800000x64, val_main_v22 (F := Ideal) x0 x2⟩, ⟨S800000x100, val_main_v8 (F := Ideal) x3 x4⟩]
    concatenates_S800000x64_S800000x64_S800000x100_S800000x228_d1
    (ix2 e (colS k)) 0 (by simp) S800000x64 _ rfl rfl 0 rfl (ix2 e k)
    (fun b hb => match b, hb with
      | ⟨0, _⟩, _ => rfl
      | ⟨1, _⟩, hb => absurd rfl hb)
    (Nat.zero_add _)

/-- Columns [64, 128) are the gathered destination row. -/
theorem concat_D (e : Fin 800000) (k : Fin 64) :
    val_main_v23 (F := Ideal) x0 x1 x2 x3 x4 (ix2 e (colD k)) = val_main_v22 (F := Ideal) x0 x2 (ix2 e k) := by
  unfold val_main_v23
  exact concatenate_apply_piece (1 : Fin S800000x228.rank)
    [⟨S800000x64, val_main_v15 (F := Ideal) x0 x1⟩, ⟨S800000x64, val_main_v22 (F := Ideal) x0 x2⟩, ⟨S800000x100, val_main_v8 (F := Ideal) x3 x4⟩]
    concatenates_S800000x64_S800000x64_S800000x100_S800000x228_d1
    (ix2 e (colD k)) 1 (by simp) S800000x64 _ rfl rfl 64 rfl (ix2 e k)
    (fun b hb => match b, hb with
      | ⟨0, _⟩, _ => rfl
      | ⟨1, _⟩, hb => absurd rfl hb)
    rfl

/-- Columns [128, 228) are the radial basis values. -/
theorem concat_R (e : Fin 800000) (r : Fin 100) :
    val_main_v23 (F := Ideal) x0 x1 x2 x3 x4 (ix2 e (colR r)) = val_main_v8 (F := Ideal) x3 x4 (ix2 e r) := by
  unfold val_main_v23
  exact concatenate_apply_piece (1 : Fin S800000x228.rank)
    [⟨S800000x64, val_main_v15 (F := Ideal) x0 x1⟩, ⟨S800000x64, val_main_v22 (F := Ideal) x0 x2⟩, ⟨S800000x100, val_main_v8 (F := Ideal) x3 x4⟩]
    concatenates_S800000x64_S800000x64_S800000x100_S800000x228_d1
    (ix2 e (colR r)) 2 (by simp) S800000x100 _ rfl rfl 128 rfl (ix2 e r)
    (fun b hb => match b, hb with
      | ⟨0, _⟩, _ => rfl
      | ⟨1, _⟩, hb => absurd rfl hb)
    rfl

/-- The pre-activation at (e, j): the one sum over 228 columns, split at 64 and 128. -/
theorem pre_apply (e : Fin 800000) (j : Fin 128) :
    val_main_v25 (F := Ideal) x0 x1 x2 x3 x4 x5 (ix2 e j)
      = pre (val_main_v15 (F := Ideal) x0 x1) (val_main_v22 (F := Ideal) x0 x2) x3 x4 x5 e j := by
  rw [val_main_v25_apply, sum_split]
  unfold pre
  have el : ∀ k : Fin 228, lidx_main_v25 (ix2 e j) k = ix2 e k := fun k => funext fun a => match a with
    | ⟨0, _⟩ => rfl
    | ⟨1, _⟩ => rfl
  have er : ∀ k : Fin 228, idx_main_v24 (ridx_main_v25 (ix2 e j) k) = ix2 j k := fun k => funext fun a => match a with
    | ⟨0, _⟩ => rfl
    | ⟨1, _⟩ => rfl
  simp only [el, val_main_v24_apply, er, concat_S, concat_D, concat_R, rbf_apply]

/-- THE REFERENCE'S RESULT is `G` of the gathered rows and the arguments. -/
theorem result_eq :
    val_main_v28 (F := Ideal) x0 x1 x2 x3 x4 x5 x6
      = G (val_main_v15 (F := Ideal) x0 x1) (val_main_v22 (F := Ideal) x0 x2) x3 x4 x5 x6 := by
  funext i
  obtain ⟨e, o, rfl⟩ : ∃ (e : Fin 800000) (o : Fin 64), i = ix2 e o := ⟨i 0, i 1, eq_ix2 i⟩
  rw [val_main_v28_apply]
  unfold G
  refine Finset.sum_congr rfl fun j _ => ?_
  have el : lidx_main_v28 (ix2 e o) j = ix2 e j := funext fun a => match a with
    | ⟨0, _⟩ => rfl
    | ⟨1, _⟩ => rfl
  have er : idx_main_v27 (ridx_main_v28 (ix2 e o) j) = ix2 o j := funext fun a => match a with
    | ⟨0, _⟩ => rfl
    | ⟨1, _⟩ => rfl
  rw [val_main_v27_apply, er, el, val_main_v26_apply, val_main_call0_v5_apply, val_main_call0_v4_apply, val_main_call0_cst_0_apply,
    val_main_call0_v3_apply, val_main_call0_v2_apply, val_main_call0_cst_apply, val_main_call0_v1_apply, val_main_call0_v0_apply,
    pre_apply]
  rfl

end Cert.ReferenceIdeal.RefValue

end
-- ==== Proof.lean ====
/-
  An edge network layer: for each of 800000 edges the features of its two end nodes are gathered from a 50000-row table,
  joined with 100 Gaussian radial basis values exp(-10 · (μ_r - d_e)²) of the edge's norm, and passed through a two-layer
  perceptron z ↦ (z · (1 / (1 + e^{-z}))) between `W1` and `W2`, both without bias.

  The kernel gathers the rows on the host in fill mode, then runs 200 grid points of 4000 edges each; a point forms the
  hidden pre-activation as THREE products — source rows, destination rows and radial basis values against the three
  column ranges of `W1` — and the reference forms it as ONE product of the concatenated 228-column row. On the extended
  reals the two agree by splitting the sum over the columns at 128 and at 64, which needs no finiteness; the kernel's
  (-10 · δ) · δ is the reference's -10 · (δ · δ) by associativity, its 0 - z is -z, and the changes of float format are
  the identity. The fill-mode gather agrees with the reference's plain gather exactly where the node indices are in
  [-50000, 50000), the range NumPy-style indexing of the table accepts: there the wrapped index is in [0, 50000), the
  in-range mask is all ones and the fill is never selected. That range is the one thing the precondition is used for.
-/
import proofs.«410212_j14929306321382_1_alg».proof.Defs
import proofs.«410212_j14929306321382_1_alg».proof.Proof.Gen.Kernel
import proofs.«410212_j14929306321382_1_alg».proof.Proof.Gen.Kernel.Skeleton
import proofs.«410212_j14929306321382_1_alg».proof.Proof.Gen.Kernel.Launch
import proofs.«410212_j14929306321382_1_alg».proof.Proof.Gen.Kernel.Points
import proofs.«410212_j14929306321382_1_alg».proof.Proof.Gen.Kernel.Frame
import proofs.«410212_j14929306321382_1_alg».proof.Proof.Gen.KernelIdeal
import proofs.«410212_j14929306321382_1_alg».proof.Proof.Gen.KernelIdeal.Skeleton
import proofs.«410212_j14929306321382_1_alg».proof.Proof.Gen.KernelIdeal.Launch
import proofs.«410212_j14929306321382_1_alg».proof.Proof.Gen.KernelIdeal.Points
import proofs.«410212_j14929306321382_1_alg».proof.Proof.Gen.KernelIdeal.Frame
import proofs.«410212_j14929306321382_1_alg».proof.Proof.Gen.ReferenceIdeal
import proofs.«410212_j14929306321382_1_alg».proof.Proof.Gen.Pre_finite_inputs
import proofs.«410212_j14929306321382_1_alg».proof.Proof.Gen.KernelIdeal.Value
import proofs.«410212_j14929306321382_1_alg».proof.Proof.Gen.ReferenceIdeal.Run
import proofs.«410212_j14929306321382_1_alg».proof.Proof.Gen.ReferenceIdeal.Read
import proofs.«410212_j14929306321382_1_alg».proof.Proof.PreRange
import proofs.«410212_j14929306321382_1_alg».proof.Proof.KernelValue
import proofs.«410212_j14929306321382_1_alg».proof.Proof.RefValue
import Idealize.ShloMosaic.Adequacy
import Idealize.ShloMosaic.Init

noncomputable section

namespace Cert.Proof

open Idealize.ShloMosaic Idealize.SL.Sem

/-- The word-level kernel runs and leaves its arguments alone: its generated frame. -/
theorem frame_k : Cert.frame_Kernel := fun m ρ _ => Cert.Kernel.Gen.frame m ρ

/-- The idealized kernel likewise. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the common function of the gathered rows and the arguments. -/
theorem algebraic : Cert.algebraic_KernelIdeal_ReferenceIdeal := by
  intro m ρ m' ρ' hpre hagree
  have hr := fun c => Cert.EdgeMlp.PreRange.range_of_pre _ _ _ _ _ _ _ (hpre c)
  refine ⟨_, (θ_run Cert.KernelIdeal.defs _ _).mono
    (fun r h c => ⟨(h c).1.trans (Cert.KernelIdeal.KValue.final m c (hr c).1 (hr c).2), (h c).2⟩)
    (Cert.KernelIdeal.Value.run_blocks m ρ), ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v28_eq, Cert.ReferenceIdeal.RefValue.result_eq]
  obtain ⟨a0, a1, a2, a3, a4, a5, a6⟩ := hagree c
  rw [a0, a1, a2, a3, a4, a5, a6]
  rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
